-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x8 : Shape := ⟨2, ![1600000, 8]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S47 .f32) (main_v33 : IVec S_ 1) : IVec S_ 1 :=
  let main_v34 : FVec F S47 .f32 := Host.absf main_arg8
  let main_cst_12 : FVec F S_ .f32 := constant S_ .f32 0x7F800000#32
  let main_v35 : FVec F S47 .f32 := broadcastInDim S47 ![] bcast_S_S47 main_cst_12
  let main_v36 : IVec S47 1 := cmpf .olt main_v34 main_v35
  let main_c_13 : IVec S_ 1 := constantI S_ 1 1#1
  let main_v37 : IVec S_ 1 := (fun x v => Host.reduce IntOp.andi x v reducesTo_S47_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x47 .f32) (main_arg8 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x47 .f32 := Host.absf main_arg7
  let main_cst_10 : FVec F S_ .f32 := constant S_ .f32 0x7F800000#32
  let main_v30 : FVec F S128x47 .f32 := broadcastInDim S128x47 ![] bcast_S_S128x47 main_cst_10
  let main_v31 : IVec S128x47 1 := cmpf .olt main_v29 main_v30
  let main_c_11 : IVec S_ 1 := constantI S_ 1 1#1
  let main_v32 : IVec S_ 1 := (fun x v => Host.reduce IntOp.andi x v reducesTo_S128x47_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000x8 .f32) (main_arg3 : FVec F S128x128 .f32) (main_arg4 : FVec F S128 .f32) (main_arg5 : FVec F S128x128 .f32) (main_arg6 : FVec F S128 .f32) (main_arg7 : FVec F S128x47 .f32) (main_arg8 : FVec F S47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000x8 : Shape := ⟨2, ![1600000, 8]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x47 : Shape := ⟨2, ![100000, 47]⟩
abbrev S5000x47 : Shape := ⟨2, ![5000, 47]⟩
abbrev S1600000x47 : Shape := ⟨2, ![1600000, 47]⟩
abbrev S1x47 : Shape := ⟨2, ![1, 47]⟩

abbrev nBuf : Space → Nat
  | .hbm => 101
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x8, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x47, .f32⟩
  | .hbm, ⟨8, _⟩ => ⟨S47, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1600000x1, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x47, .f32⟩
  | .hbm, ⟨83, _⟩ => ⟨S1600000x1, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x47, .f32⟩
  | .hbm, ⟨93, _⟩ => ⟨S1600000x47, .f32⟩
  | .hbm, ⟨94, _⟩ => ⟨S1600000x47, .f32⟩
  | .hbm, ⟨95, _⟩ => ⟨S_, .f32⟩
  | .hbm, ⟨96, _⟩ => ⟨S100000x47, .f32⟩
  | .hbm, ⟨97, _⟩ => ⟨S1600000x1, .i32⟩
  | .hbm, ⟨98, _⟩ => ⟨S100000x47, .f32⟩
  | .hbm, ⟨99, _⟩ => ⟨S1x47, .f32⟩
  | .hbm, ⟨100, _⟩ => ⟨S100000x47, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x47, .f32⟩
  | .local _ .vmem, ⟨31, _⟩ => ⟨S5000x47, .f32⟩
  | .local _ .vmem, ⟨32, _⟩ => ⟨S5000x47, .f32⟩
  | .local _ .vmem, ⟨33, _⟩ => ⟨S5000x47, .f32⟩
  | .local _ .vmem, ⟨34, _⟩ => ⟨S5000x47, .f32⟩
  | .local _ .vmem, ⟨35, _⟩ => ⟨S5000x47, .f32⟩
  | .local _ .vmem, ⟨36, _⟩ => ⟨S5000x47, .f32⟩
  | .local _ .vmem, ⟨37, _⟩ => ⟨S5000x1, .f32⟩
  | .local _ .vmem, ⟨38, _⟩ => ⟨S5000x1, .f32⟩
  | .local _ .vmem, ⟨39, _⟩ => ⟨S1x47, .f32⟩
  | .local _ .vmem, ⟨40, _⟩ => ⟨S5000x47, .f32⟩
  | .local _ .vmem, ⟨41, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x47 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x47 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x47 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x47 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x47 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x47 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x47_S128x47_0_0 : ∀ a, (![0, 0] : Fin 2 → Nat) a + S128x47.size a ≤ S128x47.size a
  h_S128x47 : 0 < S128x47.numel
  inb_S5000x47_S5000x47_0_0 : ∀ a, (![0, 0] : Fin 2 → Nat) a + S5000x47.size a ≤ S5000x47.size a
  h_S5000x47 : 0 < S5000x47.numel
  bcast_S1600000x1_S1600000x47_0_1 : S1600000x1.BroadcastsInDim S1600000x47 (![0, 1] : Fin 2 → Fin S1600000x47.rank)
  bcast_S_S100000x47 : S_.BroadcastsInDim S100000x47 (![] : Fin 0 → Fin S100000x47.rank)
  shapeCasts_S47_S1x47 : S47.ShapeCasts S1x47
  shapeCasts_S5000x47_S5000x47 : S5000x47.ShapeCasts S5000x47
  broadcasts_S5000x1_S5000x47 : S5000x1.Broadcasts S5000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x47_S5000x47_1_0_0_1_n_n_wf : DotDims.WF S5000x128 S128x47 S5000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x47.size a ≤ S128x47.size a
  hwx4_1 : ∀ i : grid4.Coords, EltTy.bits .f32 = 32 ∨ (Rect.block (s := S128x47) S128x47.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x47.size a ≤ S100000x47.size a
  hwx4_2 : ∀ i : grid4.Coords, EltTy.bits .f32 = 32 ∨ (Rect.block (s := S100000x47) S5000x47.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x47.size a ≤ S100000x47.size a
  hwx5_0 : ∀ i : grid5.Coords, EltTy.bits .f32 = 32 ∨ (Rect.block (s := S100000x47) S5000x47.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x47.size a ≤ S100000x47.size a
  hwx5_1 : ∀ i : grid5.Coords, EltTy.bits .f32 = 32 ∨ (Rect.block (s := S100000x47) S5000x47.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x47.size a ≤ S1x47.size a
  hwx5_3 : ∀ i : grid5.Coords, EltTy.bits .f32 = 32 ∨ (Rect.block (s := S1x47) S1x47.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x47.size a ≤ S100000x47.size a
  hwx5_4 : ∀ i : grid5.Coords, EltTy.bits .f32 = 32 ∨ (Rect.block (s := S100000x47) S5000x47.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x47.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x47.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x47.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S5000x47.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x47.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S5000x47.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x8 : Shape := ⟨2, ![1600000, 8]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x47 : Shape := ⟨2, ![100000, 47]⟩
abbrev S1600000x47 : Shape := ⟨2, ![1600000, 47]⟩
abbrev S1x47 : Shape := ⟨2, ![1, 47]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x8, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x47, .f32⟩
  | .hbm, ⟨8, _⟩ => ⟨S47, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000, .f32⟩
  | .hbm, ⟨47, _⟩ => ⟨S100000x128, .f32⟩
  | .hbm, ⟨48, _⟩ => ⟨S1600000x1, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1600000x1, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x47, .f32⟩
  | .hbm, ⟨102, _⟩ => ⟨S1600000x1, .f32⟩
  | .hbm, ⟨103, _⟩ => ⟨S_, .i32⟩
  | .hbm, ⟨104, _⟩ => ⟨S1600000, .i32⟩
  | .hbm, ⟨105, _⟩ => ⟨S1600000, .i1⟩
  | .hbm, ⟨106, _⟩ => ⟨S_, .i32⟩
  | .hbm, ⟨107, _⟩ => ⟨S1600000, .i32⟩
  | .hbm, ⟨108, _⟩ => ⟨S1600000, .i32⟩
  | .hbm, ⟨109, _⟩ => ⟨S1600000, .i32⟩
  | .hbm, ⟨110, _⟩ => ⟨S1600000x1, .i32⟩
  | .hbm, ⟨111, _⟩ => ⟨S1600000x47, .f32⟩
  | .hbm, ⟨112, _⟩ => ⟨S1600000x47, .f32⟩
  | .hbm, ⟨113, _⟩ => ⟨S1600000x47, .f32⟩
  | .hbm, ⟨114, _⟩ => ⟨S_, .f32⟩
  | .hbm, ⟨115, _⟩ => ⟨S100000x47, .f32⟩
  | .hbm, ⟨116, _⟩ => ⟨S1600000x1, .i32⟩
  | .hbm, ⟨117, _⟩ => ⟨S100000x47, .f32⟩
  | .hbm, ⟨118, _⟩ => ⟨S100000x1, .f32⟩
  | .hbm, ⟨119, _⟩ => ⟨S100000x47, .f32⟩
  | .hbm, ⟨120, _⟩ => ⟨S100000x47, .f32⟩
  | .hbm, ⟨121, _⟩ => ⟨S100000x47, .f32⟩
  | .hbm, ⟨122, _⟩ => ⟨S1x47, .f32⟩
  | .hbm, ⟨123, _⟩ => ⟨S100000x47, .f32⟩
  | .hbm, ⟨124, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_cst : Ref sig .tc := ⟨.hbm, 71, rfl⟩
abbrev main_call0_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_v55 : Ref sig .tc := ⟨.hbm, 77, rfl⟩
abbrev main_v56 : Ref sig .tc := ⟨.hbm, 78, rfl⟩
abbrev main_c_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_cst : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_11 : Ref sig .tc := ⟨.hbm, 103, rfl⟩
abbrev main_v77 : Ref sig .tc := ⟨.hbm, 104, rfl⟩
abbrev main_v78 : Ref sig .tc := ⟨.hbm, 105, rfl⟩
abbrev main_c_12 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_13 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x47_0_1 : S1600000x1.BroadcastsInDim S1600000x47 (![0, 1] : Fin 2 → Fin S1600000x47.rank)
  bcast_S_S100000x47 : S_.BroadcastsInDim S100000x47 (![] : Fin 0 → Fin S100000x47.rank)
  bcast_S100000x1_S100000x47_0_1 : S100000x1.BroadcastsInDim S100000x47 (![0, 1] : Fin 2 → Fin S100000x47.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x47_S100000x47_1_0_0_1_n_n_wf : DotDims.WF S100000x128 S128x47 S100000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

class Facts : Prop extends Facts₀ where

variable [Facts]
-- ==== Proof.Spec.lean ====
/-
  The whole-array functions the six kernel regions compute, written with the host operations the reference applies
  to whole arrays.  One graph-convolution layer is: a dense product `h · W` (all 100000 rows at once), a
  message-passing stretch on the host (gather, scale, scatter-add: shared by both programs), and the combination
  `agg + self_norm · (h · W) + bias`, followed in the first two layers by `max(·, 0)`.  The self-loop weight
  arrives as a column [100000, 1] and the bias as a row [1, C]; both are broadcast along the other axis.
-/
import proofs.«119006_j17231408791577_1_alg».proof.Proof.Gen.ReferenceIdeal
import Idealize.ShloMosaic.PureOps.Ideal

noncomputable section

namespace Cert.Spec

open Idealize.ShloMosaic Cert.ReferenceIdeal Cert.ReferenceIdeal.Gen

/-- The dense product of a layer with 128 output channels: entry (r, q) is the sum over k of `h (r, k) * w (k, q)`. -/
def mm128 (h : FVec Ideal S100000x128 .f32) (w : FVec Ideal S128x128 .f32) : FVec Ideal S100000x128 .f32 :=
  Host.dotGeneral (F := Ideal) dot_S100000x128_S128x128_S100000x128_1_0_0_1_n_n none h w

/-- The dense product of the last layer, 47 output channels. -/
def mm47 (h : FVec Ideal S100000x128 .f32) (w : FVec Ideal S128x47 .f32) : FVec Ideal S100000x47 .f32 :=
  Host.dotGeneral (F := Ideal) dot_S100000x128_S128x47_S100000x47_1_0_0_1_n_n none h w

/-- `agg + sn · h2 + b` over [100000, 128]: `sn` a column broadcast along the channels, `b` a row broadcast along
    the nodes; the sum associated to the left. -/
def comb128 (agg h2 : FVec Ideal S100000x128 .f32) (sn : FVec Ideal S100000x1 .f32) (b : FVec Ideal S1x128 .f32) :
    FVec Ideal S100000x128 .f32 :=
  addf (addf agg (mulf (broadcastInDim S100000x128 ![0, 1] bcast_S100000x1_S100000x128_0_1 sn) h2))
    (broadcastInDim S100000x128 ![0, 1] bcast_S1x128_S100000x128_0_1 b)

/-- `max(x, 0)` entry by entry over [100000, 128]. -/
def relu128 (x : FVec Ideal S100000x128 .f32) : FVec Ideal S100000x128 .f32 :=
  maximumf x (broadcastInDim S100000x128 ![] bcast_S_S100000x128 (constant (F := Ideal) S_ .f32 0x00000000#32))

/-- `agg + sn · h2 + b` over [100000, 47]. -/
def comb47 (agg h2 : FVec Ideal S100000x47 .f32) (sn : FVec Ideal S100000x1 .f32) (b : FVec Ideal S1x47 .f32) :
    FVec Ideal S100000x47 .f32 :=
  addf (addf agg (mulf (broadcastInDim S100000x47 ![0, 1] bcast_S100000x1_S100000x47_0_1 sn) h2))
    (broadcastInDim S100000x47 ![0, 1] bcast_S1x47_S100000x47_0_1 b)

end Cert.Spec

end
-- ==== Proof.LibLayout.lean ====
/-
  Two ways to give a vector a unit axis agree.  The kernel's program reshapes the self-loop weights [n] to a column
  [n, 1] and a bias [n] to a row [1, n]; the reference broadcasts the same vectors into those shapes along axis 0,
  respectively axis 1.  Entry (i, 0) of the column and entry (0, i) of the row are entry i of the vector either way:
  a reshape keeps the row-major position, and the row-major position of (i, 0) in [n, 1], and of (0, i) in [1, n], is i.
-/
import Idealize.ShloMosaic.Lib.Pipeline.Value

noncomputable section

namespace Cert.Layout

open Idealize.ShloMosaic

variable {α : Type}

/-- A vector reshaped to a column is the vector broadcast along axis 0 into the column's shape. -/
theorem column_eq {n : Nat} (hn : n ≠ 1) (x : (⟨1, ![n]⟩ : Shape).Idx → α)
    (sc : (⟨1, ![n]⟩ : Shape).ShapeCasts ⟨2, ![n, 1]⟩)
    (bc : (⟨1, ![n]⟩ : Shape).BroadcastsInDim ⟨2, ![n, 1]⟩ ![0]) :
    shapeCast ⟨2, ![n, 1]⟩ x sc = broadcastInDim ⟨2, ![n, 1]⟩ ![0] bc x := by
  funext j
  have h1 : (j 1).val = 0 := by have := (j 1).isLt; simp at this; omega
  let k : (⟨1, ![n]⟩ : Shape).Idx := fun a => match a with | ⟨0, _⟩ => j 0
  rw [shapeCast_apply x sc j k (by
        rw [Shape.rowMajor_val_one, Shape.rowMajor_val_two]
        show (j 0).val = (j 0).val * 1 + (j 1).val
        omega),
      broadcastInDim_apply ![0] bc x j k (fun a => by
        match a with
        | ⟨0, _⟩ =>
          show (j 0).val = if n = 1 then 0 else (j 0).val
          rw [if_neg hn])]

/-- A vector reshaped to a row is the vector broadcast along axis 1 into the row's shape. -/
theorem row_eq {n : Nat} (hn : n ≠ 1) (x : (⟨1, ![n]⟩ : Shape).Idx → α)
    (sc : (⟨1, ![n]⟩ : Shape).ShapeCasts ⟨2, ![1, n]⟩)
    (bc : (⟨1, ![n]⟩ : Shape).BroadcastsInDim ⟨2, ![1, n]⟩ ![1]) :
    shapeCast ⟨2, ![1, n]⟩ x sc = broadcastInDim ⟨2, ![1, n]⟩ ![1] bc x := by
  funext j
  have h0 : (j 0).val = 0 := by have := (j 0).isLt; simp at this; omega
  let k : (⟨1, ![n]⟩ : Shape).Idx := fun a => match a with | ⟨0, _⟩ => j 1
  rw [shapeCast_apply x sc j k (by
        rw [Shape.rowMajor_val_one, Shape.rowMajor_val_two]
        show (j 1).val = (j 0).val * n + (j 1).val
        rw [h0]; omega),
      broadcastInDim_apply ![1] bc x j k (fun a => by
        match a with
        | ⟨0, _⟩ =>
          show (j 1).val = if n = 1 then 0 else (j 1).val
          rw [if_neg hn])]

end Cert.Layout

end
-- ==== Proof.MatmulBlock.lean ====
/-
  The dense product of one block of rows, and of the whole array, read at an entry.

  A layer's product `h · W` is computed 5000 rows at a time: a block of rows times the whole weight, accumulated
  into zero.  At the ideal values narrowing an operand to bf16 is the identity and no product or sum is rounded, so
  the block's entry (p, q) is the sum over k of `x (p, k) * w (k, q)`, the contraction index re-indexed to its one
  coordinate k < 128.  The whole-array product at (r, q) is the same sum along row r.  Both are stated over
  variables of the literal shapes, entries named by their two coordinates.
-/
import proofs.«119006_j17231408791577_1_alg».proof.Proof.Gen.KernelIdeal.Skeleton
import proofs.«119006_j17231408791577_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open scoped BigOperators

/-! ## The block's product, 128 output channels -/

theorem block128Lhs_0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem block128Lhs_1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem block128Rhs_0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem block128Rhs_1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of rows times the weight, accumulated into zero, at entry (p, q). -/
theorem blockProduct128 (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply]
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact block128Lhs_0 _ _
    | ⟨1, _⟩ => exact (block128Lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (block128Rhs_0 _ _).trans hk
    | ⟨1, _⟩ => exact block128Rhs_1 _ _)
  rw [el, er]

/-- The payload of the first layer's product: narrowing is the identity. -/
theorem pay0_apply (x : Vec Ideal S5000x128 .f32) (w : Vec Ideal S128x128 .f32) (p : Fin 5000) (q : Fin 128) :
    (k0_pay1 (F := Ideal) x w) (ix2 p q) = ∑ k : Fin 128, x (ix2 p k) * w (ix2 k q) := by
  unfold k0_pay1
  exact blockProduct128 _ _ p q

/-- The payload of the second layer's product: a cast to the same shape, then as the first. -/
theorem pay2_apply (x : Vec Ideal S5000x128 .f32) (w : Vec Ideal S128x128 .f32) (p : Fin 5000) (q : Fin 128) :
    (k2_pay1 (F := Ideal) x w) (ix2 p q) = ∑ k : Fin 128, x (ix2 p k) * w (ix2 k q) := by
  unfold k2_pay1
  simp only [shapeCast_self]
  exact blockProduct128 _ _ p q

/-! ## The block's product, 47 output channels -/

theorem block47Lhs_0 (i : S5000x47.Idx) (κ : dot_S5000x128_S128x47_S5000x47_1_0_0_1_n_n.contr.Idx) :
    (dot_S5000x128_S128x47_S5000x47_1_0_0_1_n_n.lhsIdx i κ 0).val = (i 0).val := by
  unfold DotDims.lhsIdx
  rw [dif_neg (show ¬(0 : Fin S5000x128.rank) ∈ dot_S5000x128_S128x47_S5000x47_1_0_0_1_n_n.lhsBatch by decide), dif_pos (show (0 : Fin S5000x128.rank) ∈ dot_S5000x128_S128x47_S5000x47_1_0_0_1_n_n.lhsNonContracting by decide)]
  rfl
theorem block47Lhs_1 (i : S5000x47.Idx) (κ : dot_S5000x128_S128x47_S5000x47_1_0_0_1_n_n.contr.Idx) :
    (dot_S5000x128_S128x47_S5000x47_1_0_0_1_n_n.lhsIdx i κ 1).val = (κ ⟨0, by decide⟩).val :=
  dot_S5000x128_S128x47_S5000x47_1_0_0_1_n_n.lhsIdx_val_of_single rfl i κ
theorem block47Rhs_0 (i : S5000x47.Idx) (κ : dot_S5000x128_S128x47_S5000x47_1_0_0_1_n_n.contr.Idx) :
    (dot_S5000x128_S128x47_S5000x47_1_0_0_1_n_n.rhsIdx i κ 0).val = (κ ⟨0, by decide⟩).val :=
  dot_S5000x128_S128x47_S5000x47_1_0_0_1_n_n.rhsIdx_val_of_single rfl i κ
theorem block47Rhs_1 (i : S5000x47.Idx) (κ : dot_S5000x128_S128x47_S5000x47_1_0_0_1_n_n.contr.Idx) :
    (dot_S5000x128_S128x47_S5000x47_1_0_0_1_n_n.rhsIdx i κ 1).val = (i 1).val := by
  unfold DotDims.rhsIdx
  rw [dif_neg (show ¬(1 : Fin S128x47.rank) ∈ dot_S5000x128_S128x47_S5000x47_1_0_0_1_n_n.rhsBatch by decide), dif_pos (show (1 : Fin S128x47.rank) ∈ dot_S5000x128_S128x47_S5000x47_1_0_0_1_n_n.rhsNonContracting by decide)]
  rfl

/-- A block of rows times the last layer's weight, accumulated into zero, at entry (p, q). -/
theorem blockProduct47 (x : FVec Ideal S5000x128 .bf16) (w : FVec Ideal S128x47 .bf16) (p : Fin 5000) (q : Fin 47) :
    matmul dot_S5000x128_S128x47_S5000x47_1_0_0_1_n_n none x w (constant (F := Ideal) S5000x47 .f32 0x00000000#32) (ix2 p q)
      = ∑ k : Fin 128, x (ix2 p k) * w (ix2 k q) := by
  simp only [matmul]
  rw [Ideal.matmul_constant_zero_apply]
  rw [← Equiv.sum_comp (contrEquiv1 dot_S5000x128_S128x47_S5000x47_1_0_0_1_n_n 128 rfl rfl).symm]
  refine Finset.sum_congr rfl fun k _ => ?_
  have hk := contrEquiv1_symm_val dot_S5000x128_S128x47_S5000x47_1_0_0_1_n_n 128 rfl rfl k
  have el : dot_S5000x128_S128x47_S5000x47_1_0_0_1_n_n.lhsIdx (ix2 p q) ((contrEquiv1 dot_S5000x128_S128x47_S5000x47_1_0_0_1_n_n 128 rfl rfl).symm k) = ix2 p k := funext fun a => Fin.ext (by
    match a with
    | ⟨0, _⟩ => exact block47Lhs_0 _ _
    | ⟨1, _⟩ => exact (block47Lhs_1 _ _).trans hk)
  have er : dot_S5000x128_S128x47_S5000x47_1_0_0_1_n_n.rhsIdx (ix2 p q) ((contrEquiv1 dot_S5000x128_S128x47_S5000x47_1_0_0_1_n_n 128 rfl rfl).symm k) = ix2 k q := funext fun a => Fin.ext (by
    match a with
    | ⟨0, _⟩ => exact (block47Rhs_0 _ _).trans hk
    | ⟨1, _⟩ => exact block47Rhs_1 _ _)
  rw [el, er]

/-- The payload of the last layer's product. -/
theorem pay4_apply (x : Vec Ideal S5000x128 .f32) (w : Vec Ideal S128x47 .f32) (p : Fin 5000) (q : Fin 47) :
    (k4_pay1 (F := Ideal) x w) (ix2 p q) = ∑ k : Fin 128, x (ix2 p k) * w (ix2 k q) := by
  unfold k4_pay1
  simp only [shapeCast_self]
  exact blockProduct47 _ _ p q

/-! ## The whole-array product -/

theorem whole128Lhs_0 (i : S100000x128.Idx) (κ : Cert.ReferenceIdeal.dot_S100000x128_S128x128_S100000x128_1_0_0_1_n_n.contr.Idx) :
    (Cert.ReferenceIdeal.dot_S100000x128_S128x128_S100000x128_1_0_0_1_n_n.lhsIdx i κ 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem whole128Lhs_1 (i : S100000x128.Idx) (κ : Cert.ReferenceIdeal.dot_S100000x128_S128x128_S100000x128_1_0_0_1_n_n.contr.Idx) :
    (Cert.ReferenceIdeal.dot_S100000x128_S128x128_S100000x128_1_0_0_1_n_n.lhsIdx i κ 1).val = (κ ⟨0, by decide⟩).val :=
  Cert.ReferenceIdeal.dot_S100000x128_S128x128_S100000x128_1_0_0_1_n_n.lhsIdx_val_of_single rfl i κ
theorem whole128Rhs_0 (i : S100000x128.Idx) (κ : Cert.ReferenceIdeal.dot_S100000x128_S128x128_S100000x128_1_0_0_1_n_n.contr.Idx) :
    (Cert.ReferenceIdeal.dot_S100000x128_S128x128_S100000x128_1_0_0_1_n_n.rhsIdx i κ 0).val = (κ ⟨0, by decide⟩).val :=
  Cert.ReferenceIdeal.dot_S100000x128_S128x128_S100000x128_1_0_0_1_n_n.rhsIdx_val_of_single rfl i κ
theorem whole128Rhs_1 (i : S100000x128.Idx) (κ : Cert.ReferenceIdeal.dot_S100000x128_S128x128_S100000x128_1_0_0_1_n_n.contr.Idx) :
    (Cert.ReferenceIdeal.dot_S100000x128_S128x128_S100000x128_1_0_0_1_n_n.rhsIdx i κ 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- The whole-array product with 128 output channels, at entry (r, q). -/
theorem mm128_apply (h : FVec Ideal S100000x128 .f32) (w : FVec Ideal S128x128 .f32) (p : Fin 100000) (q : Fin 128) :
    Cert.Spec.mm128 h w (ix2 p q) = ∑ k : Fin 128, h (ix2 p k) * w (ix2 k q) := by
  unfold Cert.Spec.mm128
  simp only [Host.dotGeneral]
  rw [Ideal.dotGeneral_apply]
  rw [← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k := funext fun a => Fin.ext (by
    match a with
    | ⟨0, _⟩ => exact whole128Lhs_0 _ _
    | ⟨1, _⟩ => exact (whole128Lhs_1 _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q := funext fun a => Fin.ext (by
    match a with
    | ⟨0, _⟩ => exact (whole128Rhs_0 _ _).trans hk
    | ⟨1, _⟩ => exact whole128Rhs_1 _ _)
  rw [el, er]

theorem whole47Lhs_0 (i : S100000x47.Idx) (κ : Cert.ReferenceIdeal.dot_S100000x128_S128x47_S100000x47_1_0_0_1_n_n.contr.Idx) :
    (Cert.ReferenceIdeal.dot_S100000x128_S128x47_S100000x47_1_0_0_1_n_n.lhsIdx i κ 0).val = (i 0).val := by
  unfold DotDims.lhsIdx
  rw [dif_neg (show ¬(0 : Fin S100000x128.rank) ∈ Cert.ReferenceIdeal.dot_S100000x128_S128x47_S100000x47_1_0_0_1_n_n.lhsBatch by decide), dif_pos (show (0 : Fin S100000x128.rank) ∈ Cert.ReferenceIdeal.dot_S100000x128_S128x47_S100000x47_1_0_0_1_n_n.lhsNonContracting by decide)]
  rfl
theorem whole47Lhs_1 (i : S100000x47.Idx) (κ : Cert.ReferenceIdeal.dot_S100000x128_S128x47_S100000x47_1_0_0_1_n_n.contr.Idx) :
    (Cert.ReferenceIdeal.dot_S100000x128_S128x47_S100000x47_1_0_0_1_n_n.lhsIdx i κ 1).val = (κ ⟨0, by decide⟩).val :=
  Cert.ReferenceIdeal.dot_S100000x128_S128x47_S100000x47_1_0_0_1_n_n.lhsIdx_val_of_single rfl i κ
theorem whole47Rhs_0 (i : S100000x47.Idx) (κ : Cert.ReferenceIdeal.dot_S100000x128_S128x47_S100000x47_1_0_0_1_n_n.contr.Idx) :
    (Cert.ReferenceIdeal.dot_S100000x128_S128x47_S100000x47_1_0_0_1_n_n.rhsIdx i κ 0).val = (κ ⟨0, by decide⟩).val :=
  Cert.ReferenceIdeal.dot_S100000x128_S128x47_S100000x47_1_0_0_1_n_n.rhsIdx_val_of_single rfl i κ
theorem whole47Rhs_1 (i : S100000x47.Idx) (κ : Cert.ReferenceIdeal.dot_S100000x128_S128x47_S100000x47_1_0_0_1_n_n.contr.Idx) :
    (Cert.ReferenceIdeal.dot_S100000x128_S128x47_S100000x47_1_0_0_1_n_n.rhsIdx i κ 1).val = (i 1).val := by
  unfold DotDims.rhsIdx
  rw [dif_neg (show ¬(1 : Fin S128x47.rank) ∈ Cert.ReferenceIdeal.dot_S100000x128_S128x47_S100000x47_1_0_0_1_n_n.rhsBatch by decide), dif_pos (show (1 : Fin S128x47.rank) ∈ Cert.ReferenceIdeal.dot_S100000x128_S128x47_S100000x47_1_0_0_1_n_n.rhsNonContracting by decide)]
  rfl

/-- The whole-array product with 47 output channels, at entry (r, q). -/
theorem mm47_apply (h : FVec Ideal S100000x128 .f32) (w : FVec Ideal S128x47 .f32) (p : Fin 100000) (q : Fin 47) :
    Cert.Spec.mm47 h w (ix2 p q) = ∑ k : Fin 128, h (ix2 p k) * w (ix2 k q) := by
  unfold Cert.Spec.mm47
  simp only [Host.dotGeneral]
  rw [Ideal.dotGeneral_apply]
  rw [← Equiv.sum_comp (contrEquiv1 Cert.ReferenceIdeal.dot_S100000x128_S128x47_S100000x47_1_0_0_1_n_n 128 rfl rfl).symm]
  refine Finset.sum_congr rfl fun k _ => ?_
  have hk := contrEquiv1_symm_val Cert.ReferenceIdeal.dot_S100000x128_S128x47_S100000x47_1_0_0_1_n_n 128 rfl rfl k
  have el : Cert.ReferenceIdeal.dot_S100000x128_S128x47_S100000x47_1_0_0_1_n_n.lhsIdx (ix2 p q) ((contrEquiv1 Cert.ReferenceIdeal.dot_S100000x128_S128x47_S100000x47_1_0_0_1_n_n 128 rfl rfl).symm k) = ix2 p k := funext fun a => Fin.ext (by
    match a with
    | ⟨0, _⟩ => exact whole47Lhs_0 _ _
    | ⟨1, _⟩ => exact (whole47Lhs_1 _ _).trans hk)
  have er : Cert.ReferenceIdeal.dot_S100000x128_S128x47_S100000x47_1_0_0_1_n_n.rhsIdx (ix2 p q) ((contrEquiv1 Cert.ReferenceIdeal.dot_S100000x128_S128x47_S100000x47_1_0_0_1_n_n 128 rfl rfl).symm k) = ix2 k q := funext fun a => Fin.ext (by
    match a with
    | ⟨0, _⟩ => exact (whole47Rhs_0 _ _).trans hk
    | ⟨1, _⟩ => exact whole47Rhs_1 _ _)
  rw [el, er]

end Cert.KernelIdeal.RegionValue

end
-- ==== Proof.Matmul0.lean ====
/-
  The first layer's dense product as one function of whole arrays.

  The region runs over 20 grid points.  At point t it takes rows 5000 t … 5000 t + 4999 of the row operand and the
  whole weight, and writes their product to the same rows of the output.  Entry (p, q) of that block is the sum over
  k of `h (5000 t + p, k) * w (k, q)`, which is entry (5000 t + p, q) of the whole-array product; the 20 blocks of
  5000 rows cover all 100000 rows, so after the last point the output array is the whole-array product of the two
  operands as the region found them.
-/
import proofs.«119006_j17231408791577_1_alg».proof.Proof.Gen.KernelIdeal.Frame
import proofs.«119006_j17231408791577_1_alg».proof.Proof.Spec
import proofs.«119006_j17231408791577_1_alg».proof.Proof.MatmulBlock
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeroOffsets0 : (![0, 0] : Fin 2 → Nat) = fun _ => 0 := funext fun a => by fin_cases a <;> rfl

/-- The block indices over the 20 grid points: the output's and the row operand's block is (t, 0), the weight's
    stays (0, 0). -/
theorem blockIndex0 : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Row 5000 t + p is a row of the array. -/
theorem row_lt0 (t : Fin cfg0.N) (p : Fin 5000) : 5000 * t.val + p.val < 100000 := by
  have hN : grid0.N = 20 := N_0
  have ht : t.val < grid0.N := t.isLt
  have hp := p.isLt
  omega

/-- The row operand's block at point t, entry (p, k), is the array's entry (5000 t + p, k). -/
theorem rowBlock0 (c : Dev nD) (t : Fin cfg0.N) (p : Fin 5000) (k : Fin 128) :
    (iblk0 V c 0 t : Vec Ideal S5000x128 .f32) (ix2 p k)
      = (V c main_arg0 : FVec Ideal S100000x128 .f32) (ix2 ⟨5000 * t.val + p.val, row_lt0 t p⟩ k) := by
  obtain ⟨-, -, e0, e1, -, -⟩ := blockIndex0 t
  unfold iblk0
  rw [View.read_apply]
  show V c main_arg0 _ = V c main_arg0 _
  congr 1
  funext a
  apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The weight's block at every point is the whole weight. -/
theorem weightBlock0 (c : Dev nD) (t : Fin cfg0.N) (k : Fin 128) (q : Fin 128) :
    (iblk0 V c 1 t : Vec Ideal S128x128 .f32) (ix2 k q) = (V c main_arg3 : FVec Ideal S128x128 .f32) (ix2 k q) := by
  obtain ⟨-, -, -, -, e0, e1⟩ := blockIndex0 t
  unfold iblk0
  rw [View.read_apply]
  show V c main_arg3 _ = V c main_arg3 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- Entry (p, q) of the output's block at point t sits at (5000 t + p, q) in the array. -/
theorem outPlace0 (t : Fin cfg0.N) (p : Fin 5000) (q : Fin 128) :
    (((cfg0.win 2).blk t).view.emb (ix2 p q) : S100000x128.Idx) = ix2 ⟨5000 * t.val + p.val, row_lt0 t p⟩ q := by
  obtain ⟨e0, e1, -, -, -, -⟩ := blockIndex0 t
  funext a
  apply Fin.ext
  match a with
  | ⟨0, _⟩ => show win0_2.index t (0 : Fin 2) * 5000 + 1 * p.val = 5000 * t.val + p.val; omega
  | ⟨1, _⟩ => show win0_2.index t (1 : Fin 2) * 128 + 1 * q.val = q.val; omega

/-- What point t writes back is block t of the whole-array product. -/
theorem flushed0_eq (c : Dev nD) (t : Fin cfg0.N) :
    (dat0 V c).flushed 2 t
      = ((cfg0.win 2).blk t).view.read (Elt Ideal) (Cert.Spec.mm128 (V c main_arg0) (V c main_arg3)) := by
  show (cfg0.win 2).cut (grid0.coords t) ((dat0 V c).after 2 t) = _
  rw [after0_2]
  unfold out0_2
  rw [View.canon_unit_zero zeroOffsets0]
  simp only [View.ld_unit_zero (S := S5000x128) zeroOffsets0, View.ld_unit_zero (S := S128x128) zeroOffsets0]
  funext y
  obtain ⟨p, q, rfl⟩ : ∃ (p : Fin 5000) (q : Fin 128), y = ix2 p q := ⟨y 0, y 1, eq_ix2 y⟩
  show (k0_pay1 (F := Ideal) (iblk0 V c 0 t) (iblk0 V c 1 t)) (ix2 p q)
    = Cert.Spec.mm128 (V c main_arg0) (V c main_arg3) (((cfg0.win 2).blk t).view.emb (ix2 p q))
  refine (pay0_apply _ _ p q).trans ?_
  rw [outPlace0 t p q, mm128_apply]
  refine Finset.sum_congr rfl fun k _ => ?_
  rw [rowBlock0 V c t p k, weightBlock0 V c t k q]

/-- An entry of the array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Row r is in the block of point r / 5000: the 20 blocks cover the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have hlt : (i 0).val / 5000 < grid0.N := by omega
  obtain ⟨e0, e1, -, -, -, -⟩ := blockIndex0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    omega

/-- After the 20 points the output array is the whole-array product of the operands as the region found them. -/
theorem mm0 (c : Dev nD) : (dat0 (F := Ideal) V c).arrAt 2 cfg0.N = Cert.Spec.mm128 (V c main_arg0) (V c main_arg3) :=
  (dat0 V c).arrAt_eq_of_cover 2 (Cert.Spec.mm128 (V c main_arg0) (V c main_arg3)) (fun t _ => flushed0_eq V c t) cover0

end Cert.KernelIdeal.RegionValue

end
-- ==== Proof.Matmul2.lean ====
/-
  The second layer's dense product as one function of whole arrays.

  The region runs over 20 grid points.  At point t it takes rows 5000 t … 5000 t + 4999 of the row operand and the
  whole weight, and writes their product to the same rows of the output.  Entry (p, q) of that block is the sum over
  k of `h (5000 t + p, k) * w (k, q)`, which is entry (5000 t + p, q) of the whole-array product; the 20 blocks of
  5000 rows cover all 100000 rows, so after the last point the output array is the whole-array product of the two
  operands as the region found them.
-/
import proofs.«119006_j17231408791577_1_alg».proof.Proof.Gen.KernelIdeal.Frame
import proofs.«119006_j17231408791577_1_alg».proof.Proof.Spec
import proofs.«119006_j17231408791577_1_alg».proof.Proof.MatmulBlock
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeroOffsets2 : (![0, 0] : Fin 2 → Nat) = fun _ => 0 := funext fun a => by fin_cases a <;> rfl

/-- The block indices over the 20 grid points: the output's and the row operand's block is (t, 0), the weight's
    stays (0, 0). -/
theorem blockIndex2 : ∀ t : Fin cfg2.N,
    win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- Row 5000 t + p is a row of the array. -/
theorem row_lt2 (t : Fin cfg2.N) (p : Fin 5000) : 5000 * t.val + p.val < 100000 := by
  have hN : grid2.N = 20 := N_2
  have ht : t.val < grid2.N := t.isLt
  have hp := p.isLt
  omega

/-- The row operand's block at point t, entry (p, k), is the array's entry (5000 t + p, k). -/
theorem rowBlock2 (c : Dev nD) (t : Fin cfg2.N) (p : Fin 5000) (k : Fin 128) :
    (iblk2 V c 0 t : Vec Ideal S5000x128 .f32) (ix2 p k)
      = (V c main_v43 : FVec Ideal S100000x128 .f32) (ix2 ⟨5000 * t.val + p.val, row_lt2 t p⟩ k) := by
  obtain ⟨-, -, e0, e1, -, -⟩ := blockIndex2 t
  unfold iblk2
  rw [View.read_apply]
  show V c main_v43 _ = V c main_v43 _
  congr 1
  funext a
  apply Fin.ext
  match a with
  | ⟨0, _⟩ => show win2_0.index t (0 : Fin 2) * 5000 + 1 * p.val = 5000 * t.val + p.val; omega
  | ⟨1, _⟩ => show win2_0.index t (1 : Fin 2) * 128 + 1 * k.val = k.val; omega

/-- The weight's block at every point is the whole weight. -/
theorem weightBlock2 (c : Dev nD) (t : Fin cfg2.N) (k : Fin 128) (q : Fin 128) :
    (iblk2 V c 1 t : Vec Ideal S128x128 .f32) (ix2 k q) = (V c main_arg5 : FVec Ideal S128x128 .f32) (ix2 k q) := by
  obtain ⟨-, -, -, -, e0, e1⟩ := blockIndex2 t
  unfold iblk2
  rw [View.read_apply]
  show V c main_arg5 _ = V c main_arg5 _
  congr 1
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- Entry (p, q) of the output's block at point t sits at (5000 t + p, q) in the array. -/
theorem outPlace2 (t : Fin cfg2.N) (p : Fin 5000) (q : Fin 128) :
    (((cfg2.win 2).blk t).view.emb (ix2 p q) : S100000x128.Idx) = ix2 ⟨5000 * t.val + p.val, row_lt2 t p⟩ q := by
  obtain ⟨e0, e1, -, -, -, -⟩ := blockIndex2 t
  funext a
  apply Fin.ext
  match a with
  | ⟨0, _⟩ => show win2_2.index t (0 : Fin 2) * 5000 + 1 * p.val = 5000 * t.val + p.val; omega
  | ⟨1, _⟩ => show win2_2.index t (1 : Fin 2) * 128 + 1 * q.val = q.val; omega

/-- What point t writes back is block t of the whole-array product. -/
theorem flushed2_eq (c : Dev nD) (t : Fin cfg2.N) :
    (dat2 V c).flushed 2 t
      = ((cfg2.win 2).blk t).view.read (Elt Ideal) (Cert.Spec.mm128 (V c main_v43) (V c main_arg5)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x128) zeroOffsets2]
  funext y
  obtain ⟨p, q, rfl⟩ : ∃ (p : Fin 5000) (q : Fin 128), y = ix2 p q := ⟨y 0, y 1, eq_ix2 y⟩
  show (k2_pay1 (F := Ideal) (iblk2 V c 0 t) (iblk2 V c 1 t)) (ix2 p q)
    = Cert.Spec.mm128 (V c main_v43) (V c main_arg5) (((cfg2.win 2).blk t).view.emb (ix2 p q))
  refine (pay2_apply _ _ p q).trans ?_
  rw [outPlace2 t p q, mm128_apply]
  refine Finset.sum_congr rfl fun k _ => ?_
  rw [rowBlock2 V c t p k, weightBlock2 V c t k q]

/-- An entry of the array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Row r is in the block of point r / 5000: the 20 blocks cover the array. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  have hlt : (i 0).val / 5000 < grid2.N := by omega
  obtain ⟨e0, e1, -, -, -, -⟩ := blockIndex2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win2_2.index ⟨(i 0).val / 5000, hlt⟩ (1 : Fin 2) * 128 ≤ (i 1).val ∧ (i 1).val < win2_2.index ⟨(i 0).val / 5000, hlt⟩ (1 : Fin 2) * 128 + 128
    omega

/-- After the 20 points the output array is the whole-array product of the operands as the region found them. -/
theorem mm2 (c : Dev nD) : (dat2 (F := Ideal) V c).arrAt 2 cfg2.N = Cert.Spec.mm128 (V c main_v43) (V c main_arg5) :=
  (dat2 V c).arrAt_eq_of_cover 2 (Cert.Spec.mm128 (V c main_v43) (V c main_arg5)) (fun t _ => flushed2_eq V c t) cover2

end Cert.KernelIdeal.RegionValue

end
-- ==== Proof.Matmul4.lean ====
/-
  The last layer's dense product as one function of whole arrays.

  The region runs over 20 grid points.  At point t it takes rows 5000 t … 5000 t + 4999 of the row operand and the
  whole weight, and writes their product to the same rows of the output.  Entry (p, q) of that block is the sum over
  k of `h (5000 t + p, k) * w (k, q)`, which is entry (5000 t + p, q) of the whole-array product; the 20 blocks of
  5000 rows cover all 100000 rows, so after the last point the output array is the whole-array product of the two
  operands as the region found them.
-/
import proofs.«119006_j17231408791577_1_alg».proof.Proof.Gen.KernelIdeal.Frame
import proofs.«119006_j17231408791577_1_alg».proof.Proof.Spec
import proofs.«119006_j17231408791577_1_alg».proof.Proof.MatmulBlock
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeroOffsets4 : (![0, 0] : Fin 2 → Nat) = fun _ => 0 := funext fun a => by fin_cases a <;> rfl

/-- The block indices over the 20 grid points: the output's and the row operand's block is (t, 0), the weight's
    stays (0, 0). -/
theorem blockIndex4 : ∀ t : Fin cfg4.N,
    win4_2.index t (0 : Fin 2) = t.val ∧ win4_2.index t (1 : Fin 2) = 0
    ∧ win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- Row 5000 t + p is a row of the array. -/
theorem row_lt4 (t : Fin cfg4.N) (p : Fin 5000) : 5000 * t.val + p.val < 100000 := by
  have hN : grid4.N = 20 := N_4
  have ht : t.val < grid4.N := t.isLt
  have hp := p.isLt
  omega

/-- The row operand's block at point t, entry (p, k), is the array's entry (5000 t + p, k). -/
theorem rowBlock4 (c : Dev nD) (t : Fin cfg4.N) (p : Fin 5000) (k : Fin 128) :
    (iblk4 V c 0 t : Vec Ideal S5000x128 .f32) (ix2 p k)
      = (V c main_v59 : FVec Ideal S100000x128 .f32) (ix2 ⟨5000 * t.val + p.val, row_lt4 t p⟩ k) := by
  obtain ⟨-, -, e0, e1, -, -⟩ := blockIndex4 t
  unfold iblk4
  rw [View.read_apply]
  show V c main_v59 _ = V c main_v59 _
  congr 1
  funext a
  apply Fin.ext
  match a with
  | ⟨0, _⟩ => show win4_0.index t (0 : Fin 2) * 5000 + 1 * p.val = 5000 * t.val + p.val; omega
  | ⟨1, _⟩ => show win4_0.index t (1 : Fin 2) * 128 + 1 * k.val = k.val; omega

/-- The weight's block at every point is the whole weight. -/
theorem weightBlock4 (c : Dev nD) (t : Fin cfg4.N) (k : Fin 128) (q : Fin 47) :
    (iblk4 V c 1 t : Vec Ideal S128x47 .f32) (ix2 k q) = (V c main_arg7 : FVec Ideal S128x47 .f32) (ix2 k q) := by
  obtain ⟨-, -, -, -, e0, e1⟩ := blockIndex4 t
  unfold iblk4
  rw [View.read_apply]
  show V c main_arg7 _ = V c main_arg7 _
  congr 1
  funext a
  apply Fin.ext
  match a with
  | ⟨0, _⟩ => show win4_1.index t (0 : Fin 2) * 128 + 1 * k.val = k.val; omega
  | ⟨1, _⟩ => show win4_1.index t (1 : Fin 2) * 47 + 1 * q.val = q.val; omega

/-- Entry (p, q) of the output's block at point t sits at (5000 t + p, q) in the array. -/
theorem outPlace4 (t : Fin cfg4.N) (p : Fin 5000) (q : Fin 47) :
    (((cfg4.win 2).blk t).view.emb (ix2 p q) : S100000x47.Idx) = ix2 ⟨5000 * t.val + p.val, row_lt4 t p⟩ q := by
  obtain ⟨e0, e1, -, -, -, -⟩ := blockIndex4 t
  funext a
  apply Fin.ext
  match a with
  | ⟨0, _⟩ => show win4_2.index t (0 : Fin 2) * 5000 + 1 * p.val = 5000 * t.val + p.val; omega
  | ⟨1, _⟩ => show win4_2.index t (1 : Fin 2) * 47 + 1 * q.val = q.val; omega

/-- What point t writes back is block t of the whole-array product. -/
theorem flushed4_eq (c : Dev nD) (t : Fin cfg4.N) :
    (dat4 V c).flushed 2 t
      = ((cfg4.win 2).blk t).view.read (Elt Ideal) (Cert.Spec.mm47 (V c main_v59) (V c main_arg7)) := by
  show (cfg4.win 2).cut (grid4.coords t) ((dat4 V c).after 2 t) = _
  rw [after4_2]
  unfold out4_2
  rw [View.canon_unit_zero zeroOffsets4]
  simp only [View.ld_unit_zero (S := S5000x128) zeroOffsets4, View.ld_unit_zero (S := S128x47) zeroOffsets4]
  funext y
  obtain ⟨p, q, rfl⟩ : ∃ (p : Fin 5000) (q : Fin 47), y = ix2 p q := ⟨y 0, y 1, eq_ix2 y⟩
  show (k4_pay1 (F := Ideal) (iblk4 V c 0 t) (iblk4 V c 1 t)) (ix2 p q)
    = Cert.Spec.mm47 (V c main_v59) (V c main_arg7) (((cfg4.win 2).blk t).view.emb (ix2 p q))
  refine (pay4_apply _ _ p q).trans ?_
  rw [outPlace4 t p q, mm47_apply]
  refine Finset.sum_congr rfl fun k _ => ?_
  rw [rowBlock4 V c t p k, weightBlock4 V c t k q]

/-- An entry of the array is in point t's block iff each coordinate is in the block's range on its axis. -/
theorem mem_blk4 (t : Fin cfg4.N) (i : S100000x47.Idx) :
    i ∈ ((cfg4.win 2).blk t).view.set ↔ ∀ a : Fin 2, win4_2.index t a * S5000x47.size a ≤ (i a).val ∧ (i a).val < win4_2.index t a * S5000x47.size a + S5000x47.size a := by
  show i ∈ ((View.whole main_v60).slice (win4_2.rect t)).set ↔ _
  rw [View.set_slice_whole, Rect.mem_set_unit]
  exact Iff.rfl

/-- Row r is in the block of point r / 5000: the 20 blocks cover the array. -/
theorem cover4 (i : S100000x47.Idx) : ∃ t : Fin cfg4.N, (cfg4.win 2).flush t = true ∧ i ∈ ((cfg4.win 2).blk t).view.set := by
  have hi0 : (i 0).val < 100000 := (i 0).isLt
  have hi1 : (i 1).val < 47 := (i 1).isLt
  have hN : grid4.N = 20 := N_4
  have hlt : (i 0).val / 5000 < grid4.N := by omega
  obtain ⟨e0, e1, -, -, -, -⟩ := blockIndex4 ⟨(i 0).val / 5000, hlt⟩
  refine ⟨⟨(i 0).val / 5000, hlt⟩, flush4_2 _, ?_⟩
  rw [mem_blk4]
  intro a
  match a with
  | ⟨0, _⟩ =>
    show win4_2.index ⟨(i 0).val / 5000, hlt⟩ (0 : Fin 2) * 5000 ≤ (i 0).val ∧ (i 0).val < win4_2.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win4_2.index ⟨(i 0).val / 5000, hlt⟩ (1 : Fin 2) * 47 ≤ (i 1).val ∧ (i 1).val < win4_2.index ⟨(i 0).val / 5000, hlt⟩ (1 : Fin 2) * 47 + 47
    omega

/-- After the 20 points the output array is the whole-array product of the operands as the region found them. -/
theorem mm4 (c : Dev nD) : (dat4 (F := Ideal) V c).arrAt 2 cfg4.N = Cert.Spec.mm47 (V c main_v59) (V c main_arg7) :=
  (dat4 V c).arrAt_eq_of_cover 2 (Cert.Spec.mm47 (V c main_v59) (V c main_arg7)) (fun t _ => flushed4_eq V c t) cover4

end Cert.KernelIdeal.RegionValue

end
-- ==== Proof.CombineBlock.lean ====
/-
  The combine step of a graph-convolution layer, entry by entry.  On a block of 5000 nodes the kernel computes
  agg + sn · h2 + b (then max(·, 0) in the first two layers), where sn is a column [5000, 1] laid along the channels
  and b a row [1, C] laid down the nodes; the reference computes the same over all 100000 nodes at once.  Everything
  is pointwise except the two broadcasts, so both sides are read at one index (p, q): the same operations in the same
  order on agg (p, q), sn (p, 0), h2 (p, q) and b (0, q).  Stated over variables of the literal block and array
  shapes; the three combine regions instantiate them at their windows' blocks.
-/
import proofs.«119006_j17231408791577_1_alg».proof.Proof.Gen.KernelIdeal.Frame
import proofs.«119006_j17231408791577_1_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

/-! ## Zero offsets, and the row a block's row is -/

/-- The offsets of a load or store of a whole rank-2 buffer are zero on both axes. -/
theorem zeroOffsets : (![0, 0] : Fin 2 → Nat) = fun _ => 0 := funext fun a => by fin_cases a <;> rfl

/-- Row p of the t-th of 20 blocks of 5000 rows is row 5000 t + p of the 100000 (20 × 5000 = 100000). -/
def blockRow {N : Nat} (hN : N = 20) (t : Fin N) (p : Fin 5000) : Fin 100000 :=
  ⟨t.val * 5000 + p.val, by have := t.isLt; have := p.isLt; omega⟩

theorem blockRow_val {N : Nat} (hN : N = 20) (t : Fin N) (p : Fin 5000) :
    (blockRow hN t p).val = t.val * 5000 + p.val := rfl

/-! ## The two broadcasts read at an index, as the kernel spells them and as the host does -/

/-- A column [m, 1] laid along n columns by the kernel's broadcast, read at (p, q): the column's entry p. -/
theorem broadcastTo_col_apply {α : Type} {m n : Nat} (h : (⟨2, ![m, 1]⟩ : Shape).Broadcasts ⟨2, ![m, n]⟩)
    (x : (⟨2, ![m, 1]⟩ : Shape).Idx → α) (p : Fin m) (q : Fin n) :
    broadcastTo ⟨2, ![m, n]⟩ x h (ix2 p q) = x (ix2 p (0 : Fin 1)) := by
  refine broadcastTo_apply x h (ix2 p q) (ix2 p (0 : Fin 1)) ?_
  intro a
  match a with
  | ⟨0, _⟩ =>
    show p.val = if m = 1 then 0 else p.val
    split
    · have := p.isLt; omega
    · rfl
  | ⟨1, _⟩ =>
    show (0 : ℕ) = if (1 : ℕ) = 1 then 0 else _
    rw [if_pos rfl]

/-- A row [1, n] laid down m rows by the kernel's broadcast, read at (p, q): the row's entry q. -/
theorem broadcastTo_row_apply {α : Type} {m n : Nat} (h : (⟨2, ![1, n]⟩ : Shape).Broadcasts ⟨2, ![m, n]⟩)
    (x : (⟨2, ![1, n]⟩ : Shape).Idx → α) (p : Fin m) (q : Fin n) :
    broadcastTo ⟨2, ![m, n]⟩ x h (ix2 p q) = x (ix2 (0 : Fin 1) q) := by
  refine broadcastTo_apply x h (ix2 p q) (ix2 (0 : Fin 1) q) ?_
  intro a
  match a with
  | ⟨0, _⟩ =>
    show (0 : ℕ) = if (1 : ℕ) = 1 then 0 else _
    rw [if_pos rfl]
  | ⟨1, _⟩ =>
    show q.val = if n = 1 then 0 else q.val
    split
    · have := q.isLt; omega
    · rfl

/-- A column [m, 1] laid along n columns by the host's broadcast on axes (0, 1), read at (r, q): the column's entry r. -/
theorem broadcastInDim_col_apply {α : Type} {m n : Nat} (h : (⟨2, ![m, 1]⟩ : Shape).BroadcastsInDim ⟨2, ![m, n]⟩ ![0, 1])
    (x : (⟨2, ![m, 1]⟩ : Shape).Idx → α) (r : Fin m) (q : Fin n) :
    broadcastInDim ⟨2, ![m, n]⟩ ![0, 1] h x (ix2 r q) = x (ix2 r (0 : Fin 1)) := by
  refine broadcastInDim_apply ![0, 1] h x (ix2 r q) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else _
    rw [if_pos rfl]

/-- A row [1, n] laid down m rows by the host's broadcast on axes (0, 1), read at (r, q): the row's entry q. -/
theorem broadcastInDim_row_apply {α : Type} {m n : Nat} (h : (⟨2, ![1, n]⟩ : Shape).BroadcastsInDim ⟨2, ![m, n]⟩ ![0, 1])
    (x : (⟨2, ![1, n]⟩ : Shape).Idx → α) (r : Fin m) (q : Fin n) :
    broadcastInDim ⟨2, ![m, n]⟩ ![0, 1] h x (ix2 r q) = x (ix2 (0 : Fin 1) q) := by
  refine broadcastInDim_apply ![0, 1] h x (ix2 r q) (ix2 (0 : Fin 1) q) ?_
  intro a
  match a with
  | ⟨0, _⟩ =>
    show (0 : ℕ) = if (1 : ℕ) = 1 then 0 else _
    rw [if_pos rfl]
  | ⟨1, _⟩ =>
    show q.val = if n = 1 then 0 else q.val
    split
    · have := q.isLt; omega
    · rfl

/-! ## The kernel's payload at (p, q) -/

/-- Layer 1's block: max ((agg + sn · h2) + b, 0) at (p, q), the column read at (p, 0) and the row at (0, q). -/
theorem pay1_apply (agg h2 : Vec Ideal S5000x128 .f32) (sn : Vec Ideal S5000x1 .f32) (b : Vec Ideal S1x128 .f32)
    (p : Fin 5000) (q : Fin 128) :
    k1_pay1 (F := Ideal) agg sn h2 b (ix2 p q)
      = max ((agg (ix2 p q) + sn (ix2 p (0 : Fin 1)) * h2 (ix2 p q)) + b (ix2 (0 : Fin 1) q))
          (Ideal.ofBits .f32 0x00000000#32) := by
  unfold k1_pay1
  simp only [shapeCast_self]
  rw [maximumf_apply, addf_apply, addf_apply, mulf_apply, broadcast_apply]
  rw [broadcastTo_col_apply, broadcastTo_row_apply]
  rfl

/-- Layer 2's block: the same term. -/
theorem pay3_apply (agg h2 : Vec Ideal S5000x128 .f32) (sn : Vec Ideal S5000x1 .f32) (b : Vec Ideal S1x128 .f32)
    (p : Fin 5000) (q : Fin 128) :
    k3_pay1 (F := Ideal) agg sn h2 b (ix2 p q)
      = max ((agg (ix2 p q) + sn (ix2 p (0 : Fin 1)) * h2 (ix2 p q)) + b (ix2 (0 : Fin 1) q))
          (Ideal.ofBits .f32 0x00000000#32) := by
  unfold k3_pay1
  simp only [shapeCast_self]
  rw [maximumf_apply, addf_apply, addf_apply, mulf_apply, broadcast_apply]
  rw [broadcastTo_col_apply, broadcastTo_row_apply]
  rfl

/-- Layer 3's block, 47 channels and no maximum: (agg + sn · h2) + b at (p, q). -/
theorem pay5_apply (agg h2 : Vec Ideal S5000x47 .f32) (sn : Vec Ideal S5000x1 .f32) (b : Vec Ideal S1x47 .f32)
    (p : Fin 5000) (q : Fin 47) :
    k5_pay1 (F := Ideal) agg sn h2 b (ix2 p q)
      = (agg (ix2 p q) + sn (ix2 p (0 : Fin 1)) * h2 (ix2 p q)) + b (ix2 (0 : Fin 1) q) := by
  unfold k5_pay1
  simp only [shapeCast_self]
  rw [addf_apply, addf_apply, mulf_apply]
  rw [broadcastTo_col_apply, broadcastTo_row_apply]

/-! ## The whole-array functions at (r, q) -/

/-- max (agg + sn · h2 + b, 0) over all 100000 nodes, at (r, q): the zero the host broadcasts from a scalar
    constant is the same word's value as the kernel's splat. -/
theorem relu_comb128_apply (agg h2 : FVec Ideal Cert.ReferenceIdeal.S100000x128 .f32)
    (sn : FVec Ideal Cert.ReferenceIdeal.S100000x1 .f32) (b : FVec Ideal Cert.ReferenceIdeal.S1x128 .f32)
    (r : Fin 100000) (q : Fin 128) :
    Cert.Spec.relu128 (Cert.Spec.comb128 agg h2 sn b) (ix2 r q)
      = max ((agg (ix2 r q) + sn (ix2 r (0 : Fin 1)) * h2 (ix2 r q)) + b (ix2 (0 : Fin 1) q))
          (Ideal.ofBits .f32 0x00000000#32) := by
  unfold Cert.Spec.relu128 Cert.Spec.comb128
  rw [maximumf_apply, addf_apply, addf_apply, mulf_apply]
  rw [broadcastInDim_col_apply, broadcastInDim_row_apply]
  rfl

/-- agg + sn · h2 + b over all 100000 nodes and 47 channels, at (r, q). -/
theorem comb47_apply (agg h2 : FVec Ideal Cert.ReferenceIdeal.S100000x47 .f32)
    (sn : FVec Ideal Cert.ReferenceIdeal.S100000x1 .f32) (b : FVec Ideal Cert.ReferenceIdeal.S1x47 .f32)
    (r : Fin 100000) (q : Fin 47) :
    Cert.Spec.comb47 agg h2 sn b (ix2 r q)
      = (agg (ix2 r q) + sn (ix2 r (0 : Fin 1)) * h2 (ix2 r q)) + b (ix2 (0 : Fin 1) q) := by
  unfold Cert.Spec.comb47
  rw [addf_apply, addf_apply, mulf_apply]
  rw [broadcastInDim_col_apply, broadcastInDim_row_apply]

end Cert.KernelIdeal.RegionValue

end
-- ==== Proof.Combine1.lean ====
/-
  The first combine region (layer 1): after its 20 grid points the output array holds
  max (agg + sn · h2 + b, 0) of the four input arrays as the region finds them.  Point t reads rows
  5000 t … 5000 t + 4999 of agg, h2 and the column sn, and the whole bias row, and writes back the same rows of the
  output; entry (p, q) of what it writes is the whole-array function at (5000 t + p, q); the 20 blocks of 5000 rows
  cover all 100000 rows.
-/
import proofs.«119006_j17231408791577_1_alg».proof.Proof.Gen.KernelIdeal.Frame
import proofs.«119006_j17231408791577_1_alg».proof.Proof.Spec
import proofs.«119006_j17231408791577_1_alg».proof.Proof.CombineBlock
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The grid and the index maps -/

/-- The grid has 20 points. -/
theorem gridPoints1 : cfg1.N = 20 := by decide

/-- The printed index maps over the 20 points: the three row-blocked inputs and the output are at block (t, 0),
    the bias row stays at block (0, 0). -/
theorem blockIndex1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0) :=
  (by decide +kernel : ∀ t : Fin grid1.N, _)

/-! ## Each input block read off its array -/

/-- Entry (p, q) of point t's block of agg is entry (5000 t + p, q) of the array. -/
theorem aggBlock1 (c : Dev nD) (t : Fin cfg1.N) (p : Fin 5000) (q : Fin 128) :
    (iblk1 V c 0 t : Vec Ideal S5000x128 .f32) (ix2 p q)
      = (V c main_v41 : S100000x128.Idx → Elt Ideal .f32) (ix2 (blockRow gridPoints1 t p) q) := by
  unfold iblk1
  rw [View.read_apply]
  show V c main_v41 _ = V c main_v41 _
  congr 1
  funext a; apply Fin.ext
  obtain ⟨⟨e0, e1⟩, -⟩ := blockIndex1 t
  match a with
  | ⟨0, _⟩ => show win1_0.index t (0 : Fin 2) * 5000 + 1 * p.val = t.val * 5000 + p.val; rw [e0]; omega
  | ⟨1, _⟩ => show win1_0.index t (1 : Fin 2) * 128 + 1 * q.val = q.val; rw [e1]; omega

/-- Entry (p, q) of point t's block of h2 is entry (5000 t + p, q) of the array. -/
theorem h2Block1 (c : Dev nD) (t : Fin cfg1.N) (p : Fin 5000) (q : Fin 128) :
    (iblk1 V c 1 t : Vec Ideal S5000x128 .f32) (ix2 p q)
      = (V c main_v28 : S100000x128.Idx → Elt Ideal .f32) (ix2 (blockRow gridPoints1 t p) q) := by
  unfold iblk1
  rw [View.read_apply]
  show V c main_v28 _ = V c main_v28 _
  congr 1
  funext a; apply Fin.ext
  obtain ⟨-, ⟨e0, e1⟩, -⟩ := blockIndex1 t
  match a with
  | ⟨0, _⟩ => show win1_1.index t (0 : Fin 2) * 5000 + 1 * p.val = t.val * 5000 + p.val; rw [e0]; omega
  | ⟨1, _⟩ => show win1_1.index t (1 : Fin 2) * 128 + 1 * q.val = q.val; rw [e1]; omega

/-- Entry (p, 0) of point t's block of the column sn is entry (5000 t + p, 0) of the column. -/
theorem snBlock1 (c : Dev nD) (t : Fin cfg1.N) (p : Fin 5000) :
    (iblk1 V c 2 t : Vec Ideal S5000x1 .f32) (ix2 p (0 : Fin 1))
      = (V c main_v27 : S100000x1.Idx → Elt Ideal .f32) (ix2 (blockRow gridPoints1 t p) (0 : Fin 1)) := by
  unfold iblk1
  rw [View.read_apply]
  show V c main_v27 _ = V c main_v27 _
  congr 1
  funext a; apply Fin.ext
  obtain ⟨-, -, ⟨e0, e1⟩, -⟩ := blockIndex1 t
  match a with
  | ⟨0, _⟩ => show win1_2.index t (0 : Fin 2) * 5000 + 1 * p.val = t.val * 5000 + p.val; rw [e0]; omega
  | ⟨1, _⟩ => show win1_2.index t (1 : Fin 2) * 1 + 1 * (0 : Fin 1).val = (0 : Fin 1).val; rw [e1]; rfl

/-- The bias row's one block is the row: entry (0, q) at every point. -/
theorem biasBlock1 (c : Dev nD) (t : Fin cfg1.N) (q : Fin 128) :
    (iblk1 V c 3 t : Vec Ideal S1x128 .f32) (ix2 (0 : Fin 1) q)
      = (V c main_v42 : S1x128.Idx → Elt Ideal .f32) (ix2 (0 : Fin 1) q) := by
  unfold iblk1
  rw [View.read_apply]
  show V c main_v42 _ = V c main_v42 _
  congr 1
  funext a; apply Fin.ext
  obtain ⟨-, -, -, ⟨e0, e1⟩, -⟩ := blockIndex1 t
  match a with
  | ⟨0, _⟩ => show win1_3.index t (0 : Fin 2) * 1 + 1 * (0 : Fin 1).val = (0 : Fin 1).val; rw [e0]; rfl
  | ⟨1, _⟩ => show win1_3.index t (1 : Fin 2) * 128 + 1 * q.val = q.val; rw [e1]; omega

/-- Entry (p, q) of point t's block of the output lies at (5000 t + p, q) of the output array. -/
theorem outEmb1 (t : Fin cfg1.N) (p : Fin 5000) (q : Fin 128) :
    ((cfg1.win 4).blk t).view.emb (ix2 p q) = (ix2 (blockRow gridPoints1 t p) q : S100000x128.Idx) := by
  funext a; apply Fin.ext
  obtain ⟨-, -, -, -, ⟨e0, e1⟩⟩ := blockIndex1 t
  match a with
  | ⟨0, _⟩ => show win1_4.index t (0 : Fin 2) * 5000 + 1 * p.val = t.val * 5000 + p.val; rw [e0]; omega
  | ⟨1, _⟩ => show win1_4.index t (1 : Fin 2) * 128 + 1 * q.val = q.val; rw [e1]; omega

/-! ## What a point writes back, and the array after the last point -/

/-- WHAT POINT t WRITES BACK is block t of the whole-array function: at (p, q) both are
    max ((agg (r, q) + sn (r, 0) · h2 (r, q)) + b (0, q), 0) with r = 5000 t + p. -/
theorem flushed1_eq (c : Dev nD) (t : Fin cfg1.N) :
    (dat1 (F := Ideal) V c).flushed 4 t
      = ((cfg1.win 4).blk t).view.read (Elt Ideal)
          (Cert.Spec.relu128 (Cert.Spec.comb128 (V c main_v41) (V c main_v28) (V c main_v27) (V c main_v42))) := by
  show (cfg1.win 4).cut (grid1.coords t) ((dat1 V c).after 4 t) = _
  rw [after1_4]
  unfold out1_4
  rw [View.canon_unit_zero zeroOffsets]
  simp only [View.ld_unit_zero (S := S5000x128) zeroOffsets, View.ld_unit_zero (S := S5000x1) zeroOffsets,
    View.ld_unit_zero (S := S1x128) zeroOffsets]
  funext y
  obtain ⟨p, q, rfl⟩ : ∃ (p : Fin 5000) (q : Fin 128), y = ix2 p q := ⟨y 0, y 1, eq_ix2 y⟩
  rw [View.read_apply, outEmb1]
  refine (pay1_apply (iblk1 V c 0 t) (iblk1 V c 1 t) (iblk1 V c 2 t) (iblk1 V c 3 t) p q).trans ?_
  rw [aggBlock1, h2Block1, snBlock1, biasBlock1]
  exact (relu_comb128_apply (V c main_v41) (V c main_v28) (V c main_v27) (V c main_v42) (blockRow gridPoints1 t p) q).symm

/-- An index of the output array is in point t's block iff each coordinate is in the block's range on its axis. -/
theorem mem_outBlock1 (t : Fin cfg1.N) (i : S100000x128.Idx) :
    i ∈ ((cfg1.win 4).blk t).view.set
      ↔ ∀ a : Fin 2, win1_4.index t a * S5000x128.size a ≤ (i a).val
          ∧ (i a).val < win1_4.index t a * S5000x128.size a + S5000x128.size a := by
  show i ∈ ((View.whole main_v43).slice (win1_4.rect t)).set ↔ _
  rw [View.set_slice_whole, Rect.mem_set_unit]
  exact Iff.rfl

/-- Every index of the output array is in some point's block: row r is in point r / 5000's. -/
theorem covered1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := gridPoints1
  let t : Fin cfg1.N := ⟨(i 0).val / 5000, by omega⟩
  obtain ⟨-, -, -, -, ⟨e0, e1⟩⟩ := blockIndex1 t
  have ht : t.val = (i 0).val / 5000 := rfl
  refine ⟨t, flush1_4 t, ?_⟩
  rw [mem_outBlock1]
  intro a
  match a with
  | ⟨0, _⟩ =>
    show win1_4.index t (0 : Fin 2) * 5000 ≤ (i 0).val ∧ (i 0).val < win1_4.index t (0 : Fin 2) * 5000 + 5000
    rw [e0]; omega
  | ⟨1, _⟩ =>
    show win1_4.index t (1 : Fin 2) * 128 ≤ (i 1).val ∧ (i 1).val < win1_4.index t (1 : Fin 2) * 128 + 128
    rw [e1]; omega

/-- THE OUTPUT ARRAY after the region: max (agg + sn · h2 + b, 0) of the arrays as the region finds them. -/
theorem cb1 (c : Dev nD) :
    (dat1 (F := Ideal) V c).arrAt 4 cfg1.N
      = Cert.Spec.relu128 (Cert.Spec.comb128 (V c main_v41) (V c main_v28) (V c main_v27) (V c main_v42)) :=
  (dat1 (F := Ideal) V c).arrAt_eq_of_cover 4 _ (fun t _ => flushed1_eq V c t) covered1

end Cert.KernelIdeal.RegionValue

end
-- ==== Proof.Combine3.lean ====
/-
  The second combine region (layer 2): after its 20 grid points the output array holds
  max (agg + sn · h2 + b, 0) of the four input arrays as the region finds them.  Point t reads rows
  5000 t … 5000 t + 4999 of agg, h2 and the column sn, and the whole bias row, and writes back the same rows of the
  output; entry (p, q) of what it writes is the whole-array function at (5000 t + p, q); the 20 blocks of 5000 rows
  cover all 100000 rows.
-/
import proofs.«119006_j17231408791577_1_alg».proof.Proof.Gen.KernelIdeal.Frame
import proofs.«119006_j17231408791577_1_alg».proof.Proof.Spec
import proofs.«119006_j17231408791577_1_alg».proof.Proof.CombineBlock
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The grid and the index maps -/

/-- The grid has 20 points. -/
theorem gridPoints3 : cfg3.N = 20 := by decide

/-- The printed index maps over the 20 points: the three row-blocked inputs and the output are at block (t, 0),
    the bias row stays at block (0, 0). -/
theorem blockIndex3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = t.val ∧ win3_4.index t (1 : Fin 2) = 0) :=
  (by decide +kernel : ∀ t : Fin grid3.N, _)

/-! ## Each input block read off its array -/

/-- Entry (p, q) of point t's block of agg is entry (5000 t + p, q) of the array. -/
theorem aggBlock3 (c : Dev nD) (t : Fin cfg3.N) (p : Fin 5000) (q : Fin 128) :
    (iblk3 V c 0 t : Vec Ideal S5000x128 .f32) (ix2 p q)
      = (V c main_v57 : S100000x128.Idx → Elt Ideal .f32) (ix2 (blockRow gridPoints3 t p) q) := by
  unfold iblk3
  rw [View.read_apply]
  show V c main_v57 _ = V c main_v57 _
  congr 1
  funext a; apply Fin.ext
  obtain ⟨⟨e0, e1⟩, -⟩ := blockIndex3 t
  match a with
  | ⟨0, _⟩ => show win3_0.index t (0 : Fin 2) * 5000 + 1 * p.val = t.val * 5000 + p.val; rw [e0]; omega
  | ⟨1, _⟩ => show win3_0.index t (1 : Fin 2) * 128 + 1 * q.val = q.val; rw [e1]; omega

/-- Entry (p, q) of point t's block of h2 is entry (5000 t + p, q) of the array. -/
theorem h2Block3 (c : Dev nD) (t : Fin cfg3.N) (p : Fin 5000) (q : Fin 128) :
    (iblk3 V c 1 t : Vec Ideal S5000x128 .f32) (ix2 p q)
      = (V c main_v44 : S100000x128.Idx → Elt Ideal .f32) (ix2 (blockRow gridPoints3 t p) q) := by
  unfold iblk3
  rw [View.read_apply]
  show V c main_v44 _ = V c main_v44 _
  congr 1
  funext a; apply Fin.ext
  obtain ⟨-, ⟨e0, e1⟩, -⟩ := blockIndex3 t
  match a with
  | ⟨0, _⟩ => show win3_1.index t (0 : Fin 2) * 5000 + 1 * p.val = t.val * 5000 + p.val; rw [e0]; omega
  | ⟨1, _⟩ => show win3_1.index t (1 : Fin 2) * 128 + 1 * q.val = q.val; rw [e1]; omega

/-- Entry (p, 0) of point t's block of the column sn is entry (5000 t + p, 0) of the column. -/
theorem snBlock3 (c : Dev nD) (t : Fin cfg3.N) (p : Fin 5000) :
    (iblk3 V c 2 t : Vec Ideal S5000x1 .f32) (ix2 p (0 : Fin 1))
      = (V c main_v27 : S100000x1.Idx → Elt Ideal .f32) (ix2 (blockRow gridPoints3 t p) (0 : Fin 1)) := by
  unfold iblk3
  rw [View.read_apply]
  show V c main_v27 _ = V c main_v27 _
  congr 1
  funext a; apply Fin.ext
  obtain ⟨-, -, ⟨e0, e1⟩, -⟩ := blockIndex3 t
  match a with
  | ⟨0, _⟩ => show win3_2.index t (0 : Fin 2) * 5000 + 1 * p.val = t.val * 5000 + p.val; rw [e0]; omega
  | ⟨1, _⟩ => show win3_2.index t (1 : Fin 2) * 1 + 1 * (0 : Fin 1).val = (0 : Fin 1).val; rw [e1]; rfl

/-- The bias row's one block is the row: entry (0, q) at every point. -/
theorem biasBlock3 (c : Dev nD) (t : Fin cfg3.N) (q : Fin 128) :
    (iblk3 V c 3 t : Vec Ideal S1x128 .f32) (ix2 (0 : Fin 1) q)
      = (V c main_v58 : S1x128.Idx → Elt Ideal .f32) (ix2 (0 : Fin 1) q) := by
  unfold iblk3
  rw [View.read_apply]
  show V c main_v58 _ = V c main_v58 _
  congr 1
  funext a; apply Fin.ext
  obtain ⟨-, -, -, ⟨e0, e1⟩, -⟩ := blockIndex3 t
  match a with
  | ⟨0, _⟩ => show win3_3.index t (0 : Fin 2) * 1 + 1 * (0 : Fin 1).val = (0 : Fin 1).val; rw [e0]; rfl
  | ⟨1, _⟩ => show win3_3.index t (1 : Fin 2) * 128 + 1 * q.val = q.val; rw [e1]; omega

/-- Entry (p, q) of point t's block of the output lies at (5000 t + p, q) of the output array. -/
theorem outEmb3 (t : Fin cfg3.N) (p : Fin 5000) (q : Fin 128) :
    ((cfg3.win 4).blk t).view.emb (ix2 p q) = (ix2 (blockRow gridPoints3 t p) q : S100000x128.Idx) := by
  funext a; apply Fin.ext
  obtain ⟨-, -, -, -, ⟨e0, e1⟩⟩ := blockIndex3 t
  match a with
  | ⟨0, _⟩ => show win3_4.index t (0 : Fin 2) * 5000 + 1 * p.val = t.val * 5000 + p.val; rw [e0]; omega
  | ⟨1, _⟩ => show win3_4.index t (1 : Fin 2) * 128 + 1 * q.val = q.val; rw [e1]; omega

/-! ## What a point writes back, and the array after the last point -/

/-- WHAT POINT t WRITES BACK is block t of the whole-array function: at (p, q) both are
    max ((agg (r, q) + sn (r, 0) · h2 (r, q)) + b (0, q), 0) with r = 5000 t + p. -/
theorem flushed3_eq (c : Dev nD) (t : Fin cfg3.N) :
    (dat3 (F := Ideal) V c).flushed 4 t
      = ((cfg3.win 4).blk t).view.read (Elt Ideal)
          (Cert.Spec.relu128 (Cert.Spec.comb128 (V c main_v57) (V c main_v44) (V c main_v27) (V c main_v58))) := by
  show (cfg3.win 4).cut (grid3.coords t) ((dat3 V c).after 4 t) = _
  rw [after3_4]
  unfold out3_4
  rw [View.canon_unit_zero zeroOffsets]
  simp only [View.ld_unit_zero (S := S5000x128) zeroOffsets, View.ld_unit_zero (S := S5000x1) zeroOffsets,
    View.ld_unit_zero (S := S1x128) zeroOffsets]
  funext y
  obtain ⟨p, q, rfl⟩ : ∃ (p : Fin 5000) (q : Fin 128), y = ix2 p q := ⟨y 0, y 1, eq_ix2 y⟩
  rw [View.read_apply, outEmb3]
  refine (pay3_apply (iblk3 V c 0 t) (iblk3 V c 1 t) (iblk3 V c 2 t) (iblk3 V c 3 t) p q).trans ?_
  rw [aggBlock3, h2Block3, snBlock3, biasBlock3]
  exact (relu_comb128_apply (V c main_v57) (V c main_v44) (V c main_v27) (V c main_v58) (blockRow gridPoints3 t p) q).symm

/-- An index of the output array is in point t's block iff each coordinate is in the block's range on its axis. -/
theorem mem_outBlock3 (t : Fin cfg3.N) (i : S100000x128.Idx) :
    i ∈ ((cfg3.win 4).blk t).view.set
      ↔ ∀ a : Fin 2, win3_4.index t a * S5000x128.size a ≤ (i a).val
          ∧ (i a).val < win3_4.index t a * S5000x128.size a + S5000x128.size a := by
  show i ∈ ((View.whole main_v59).slice (win3_4.rect t)).set ↔ _
  rw [View.set_slice_whole, Rect.mem_set_unit]
  exact Iff.rfl

/-- Every index of the output array is in some point's block: row r is in point r / 5000's. -/
theorem covered3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := gridPoints3
  let t : Fin cfg3.N := ⟨(i 0).val / 5000, by omega⟩
  obtain ⟨-, -, -, -, ⟨e0, e1⟩⟩ := blockIndex3 t
  have ht : t.val = (i 0).val / 5000 := rfl
  refine ⟨t, flush3_4 t, ?_⟩
  rw [mem_outBlock3]
  intro a
  match a with
  | ⟨0, _⟩ =>
    show win3_4.index t (0 : Fin 2) * 5000 ≤ (i 0).val ∧ (i 0).val < win3_4.index t (0 : Fin 2) * 5000 + 5000
    rw [e0]; omega
  | ⟨1, _⟩ =>
    show win3_4.index t (1 : Fin 2) * 128 ≤ (i 1).val ∧ (i 1).val < win3_4.index t (1 : Fin 2) * 128 + 128
    rw [e1]; omega

/-- THE OUTPUT ARRAY after the region: max (agg + sn · h2 + b, 0) of the arrays as the region finds them. -/
theorem cb3 (c : Dev nD) :
    (dat3 (F := Ideal) V c).arrAt 4 cfg3.N
      = Cert.Spec.relu128 (Cert.Spec.comb128 (V c main_v57) (V c main_v44) (V c main_v27) (V c main_v58)) :=
  (dat3 (F := Ideal) V c).arrAt_eq_of_cover 4 _ (fun t _ => flushed3_eq V c t) covered3

end Cert.KernelIdeal.RegionValue

end
-- ==== Proof.Combine5.lean ====
/-
  The third combine region (layer 3, 47 channels, no maximum): after its 20 grid points the output array holds
  agg + sn · h2 + b of the four input arrays as the region finds them.  Point t reads rows
  5000 t … 5000 t + 4999 of agg, h2 and the column sn, and the whole bias row, and writes back the same rows of the
  output; entry (p, q) of what it writes is the whole-array function at (5000 t + p, q); the 20 blocks of 5000 rows
  cover all 100000 rows.
-/
import proofs.«119006_j17231408791577_1_alg».proof.Proof.Gen.KernelIdeal.Frame
import proofs.«119006_j17231408791577_1_alg».proof.Proof.Spec
import proofs.«119006_j17231408791577_1_alg».proof.Proof.CombineBlock
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The grid and the index maps -/

/-- The grid has 20 points. -/
theorem gridPoints5 : cfg5.N = 20 := by decide

/-- The printed index maps over the 20 points: the three row-blocked inputs and the output are at block (t, 0),
    the bias row stays at block (0, 0). -/
theorem blockIndex5 : ∀ t : Fin cfg5.N,
    (win5_0.index t (0 : Fin 2) = t.val ∧ win5_0.index t (1 : Fin 2) = 0)
    ∧ (win5_1.index t (0 : Fin 2) = t.val ∧ win5_1.index t (1 : Fin 2) = 0)
    ∧ (win5_2.index t (0 : Fin 2) = t.val ∧ win5_2.index t (1 : Fin 2) = 0)
    ∧ (win5_3.index t (0 : Fin 2) = 0 ∧ win5_3.index t (1 : Fin 2) = 0)
    ∧ (win5_4.index t (0 : Fin 2) = t.val ∧ win5_4.index t (1 : Fin 2) = 0) :=
  (by decide +kernel : ∀ t : Fin grid5.N, _)

/-! ## Each input block read off its array -/

/-- Entry (p, q) of point t's block of agg is entry (5000 t + p, q) of the array. -/
theorem aggBlock5 (c : Dev nD) (t : Fin cfg5.N) (p : Fin 5000) (q : Fin 47) :
    (iblk5 V c 0 t : Vec Ideal S5000x47 .f32) (ix2 p q)
      = (V c main_v73 : S100000x47.Idx → Elt Ideal .f32) (ix2 (blockRow gridPoints5 t p) q) := by
  unfold iblk5
  rw [View.read_apply]
  show V c main_v73 _ = V c main_v73 _
  congr 1
  funext a; apply Fin.ext
  obtain ⟨⟨e0, e1⟩, -⟩ := blockIndex5 t
  match a with
  | ⟨0, _⟩ => show win5_0.index t (0 : Fin 2) * 5000 + 1 * p.val = t.val * 5000 + p.val; rw [e0]; omega
  | ⟨1, _⟩ => show win5_0.index t (1 : Fin 2) * 47 + 1 * q.val = q.val; rw [e1]; omega

/-- Entry (p, q) of point t's block of h2 is entry (5000 t + p, q) of the array. -/
theorem h2Block5 (c : Dev nD) (t : Fin cfg5.N) (p : Fin 5000) (q : Fin 47) :
    (iblk5 V c 1 t : Vec Ideal S5000x47 .f32) (ix2 p q)
      = (V c main_v60 : S100000x47.Idx → Elt Ideal .f32) (ix2 (blockRow gridPoints5 t p) q) := by
  unfold iblk5
  rw [View.read_apply]
  show V c main_v60 _ = V c main_v60 _
  congr 1
  funext a; apply Fin.ext
  obtain ⟨-, ⟨e0, e1⟩, -⟩ := blockIndex5 t
  match a with
  | ⟨0, _⟩ => show win5_1.index t (0 : Fin 2) * 5000 + 1 * p.val = t.val * 5000 + p.val; rw [e0]; omega
  | ⟨1, _⟩ => show win5_1.index t (1 : Fin 2) * 47 + 1 * q.val = q.val; rw [e1]; omega

/-- Entry (p, 0) of point t's block of the column sn is entry (5000 t + p, 0) of the column. -/
theorem snBlock5 (c : Dev nD) (t : Fin cfg5.N) (p : Fin 5000) :
    (iblk5 V c 2 t : Vec Ideal S5000x1 .f32) (ix2 p (0 : Fin 1))
      = (V c main_v27 : S100000x1.Idx → Elt Ideal .f32) (ix2 (blockRow gridPoints5 t p) (0 : Fin 1)) := by
  unfold iblk5
  rw [View.read_apply]
  show V c main_v27 _ = V c main_v27 _
  congr 1
  funext a; apply Fin.ext
  obtain ⟨-, -, ⟨e0, e1⟩, -⟩ := blockIndex5 t
  match a with
  | ⟨0, _⟩ => show win5_2.index t (0 : Fin 2) * 5000 + 1 * p.val = t.val * 5000 + p.val; rw [e0]; omega
  | ⟨1, _⟩ => show win5_2.index t (1 : Fin 2) * 1 + 1 * (0 : Fin 1).val = (0 : Fin 1).val; rw [e1]; rfl

/-- The bias row's one block is the row: entry (0, q) at every point. -/
theorem biasBlock5 (c : Dev nD) (t : Fin cfg5.N) (q : Fin 47) :
    (iblk5 V c 3 t : Vec Ideal S1x47 .f32) (ix2 (0 : Fin 1) q)
      = (V c main_v74 : S1x47.Idx → Elt Ideal .f32) (ix2 (0 : Fin 1) q) := by
  unfold iblk5
  rw [View.read_apply]
  show V c main_v74 _ = V c main_v74 _
  congr 1
  funext a; apply Fin.ext
  obtain ⟨-, -, -, ⟨e0, e1⟩, -⟩ := blockIndex5 t
  match a with
  | ⟨0, _⟩ => show win5_3.index t (0 : Fin 2) * 1 + 1 * (0 : Fin 1).val = (0 : Fin 1).val; rw [e0]; rfl
  | ⟨1, _⟩ => show win5_3.index t (1 : Fin 2) * 47 + 1 * q.val = q.val; rw [e1]; omega

/-- Entry (p, q) of point t's block of the output lies at (5000 t + p, q) of the output array. -/
theorem outEmb5 (t : Fin cfg5.N) (p : Fin 5000) (q : Fin 47) :
    ((cfg5.win 4).blk t).view.emb (ix2 p q) = (ix2 (blockRow gridPoints5 t p) q : S100000x47.Idx) := by
  funext a; apply Fin.ext
  obtain ⟨-, -, -, -, ⟨e0, e1⟩⟩ := blockIndex5 t
  match a with
  | ⟨0, _⟩ => show win5_4.index t (0 : Fin 2) * 5000 + 1 * p.val = t.val * 5000 + p.val; rw [e0]; omega
  | ⟨1, _⟩ => show win5_4.index t (1 : Fin 2) * 47 + 1 * q.val = q.val; rw [e1]; omega

/-! ## What a point writes back, and the array after the last point -/

/-- WHAT POINT t WRITES BACK is block t of the whole-array function: at (p, q) both are
    (agg (r, q) + sn (r, 0) · h2 (r, q)) + b (0, q) with r = 5000 t + p. -/
theorem flushed5_eq (c : Dev nD) (t : Fin cfg5.N) :
    (dat5 (F := Ideal) V c).flushed 4 t
      = ((cfg5.win 4).blk t).view.read (Elt Ideal)
          (Cert.Spec.comb47 (V c main_v73) (V c main_v60) (V c main_v27) (V c main_v74)) := by
  show (cfg5.win 4).cut (grid5.coords t) ((dat5 V c).after 4 t) = _
  rw [after5_4]
  unfold out5_4
  rw [View.canon_unit_zero zeroOffsets]
  simp only [View.ld_unit_zero (S := S5000x47) zeroOffsets, View.ld_unit_zero (S := S5000x1) zeroOffsets,
    View.ld_unit_zero (S := S1x47) zeroOffsets]
  funext y
  obtain ⟨p, q, rfl⟩ : ∃ (p : Fin 5000) (q : Fin 47), y = ix2 p q := ⟨y 0, y 1, eq_ix2 y⟩
  rw [View.read_apply, outEmb5]
  refine (pay5_apply (iblk5 V c 0 t) (iblk5 V c 1 t) (iblk5 V c 2 t) (iblk5 V c 3 t) p q).trans ?_
  rw [aggBlock5, h2Block5, snBlock5, biasBlock5]
  exact (comb47_apply (V c main_v73) (V c main_v60) (V c main_v27) (V c main_v74) (blockRow gridPoints5 t p) q).symm

/-- An index of the output array is in point t's block iff each coordinate is in the block's range on its axis. -/
theorem mem_outBlock5 (t : Fin cfg5.N) (i : S100000x47.Idx) :
    i ∈ ((cfg5.win 4).blk t).view.set
      ↔ ∀ a : Fin 2, win5_4.index t a * S5000x47.size a ≤ (i a).val
          ∧ (i a).val < win5_4.index t a * S5000x47.size a + S5000x47.size a := by
  show i ∈ ((View.whole main_v75).slice (win5_4.rect t)).set ↔ _
  rw [View.set_slice_whole, Rect.mem_set_unit]
  exact Iff.rfl

/-- Every index of the output array is in some point's block: row r is in point r / 5000's. -/
theorem covered5 (i : S100000x47.Idx) :
    ∃ t : Fin cfg5.N, (cfg5.win 4).flush t = true ∧ i ∈ ((cfg5.win 4).blk t).view.set := by
  have hi0 : (i 0).val < 100000 := (i 0).isLt
  have hi1 : (i 1).val < 47 := (i 1).isLt
  have hN : cfg5.N = 20 := gridPoints5
  let t : Fin cfg5.N := ⟨(i 0).val / 5000, by omega⟩
  obtain ⟨-, -, -, -, ⟨e0, e1⟩⟩ := blockIndex5 t
  have ht : t.val = (i 0).val / 5000 := rfl
  refine ⟨t, flush5_4 t, ?_⟩
  rw [mem_outBlock5]
  intro a
  match a with
  | ⟨0, _⟩ =>
    show win5_4.index t (0 : Fin 2) * 5000 ≤ (i 0).val ∧ (i 0).val < win5_4.index t (0 : Fin 2) * 5000 + 5000
    rw [e0]; omega
  | ⟨1, _⟩ =>
    show win5_4.index t (1 : Fin 2) * 47 ≤ (i 1).val ∧ (i 1).val < win5_4.index t (1 : Fin 2) * 47 + 47
    rw [e1]; omega

/-- THE OUTPUT ARRAY after the region: agg + sn · h2 + b of the arrays as the region finds them. -/
theorem cb5 (c : Dev nD) :
    (dat5 (F := Ideal) V c).arrAt 4 cfg5.N
      = Cert.Spec.comb47 (V c main_v73) (V c main_v60) (V c main_v27) (V c main_v74) :=
  (dat5 (F := Ideal) V c).arrAt_eq_of_cover 4 _ (fun t _ => flushed5_eq V c t) covered5

end Cert.KernelIdeal.RegionValue

end
-- ==== Proof.Chain.lean ====
/-
  Every buffer of the kernel's program that a later segment reads, followed from the launch through @main's segments
  (four host stretches and six tiled regions), and found equal to the reference's matching stage of the launch
  arrays.  A host stretch's results are its operations' pure term of what it reads; a region's output is the
  whole-array product or combination of its inputs as entered; a buffer that a segment neither writes nor has among
  its arrays keeps its contents.  The reference's stages are the same operations in the same order, so each equation
  closes by unfolding the stages; the only facts used besides are that a reshape of a vector to a column, or to a row,
  is the broadcast the reference applies.
-/
import proofs.«119006_j17231408791577_1_alg».proof.Proof.Gen.KernelIdeal.Frame
import proofs.«119006_j17231408791577_1_alg».proof.Proof.Gen.ReferenceIdeal.Read
import proofs.«119006_j17231408791577_1_alg».proof.Proof.Spec
import proofs.«119006_j17231408791577_1_alg».proof.Proof.LibLayout
import proofs.«119006_j17231408791577_1_alg».proof.Proof.Matmul0
import proofs.«119006_j17231408791577_1_alg».proof.Proof.Matmul2
import proofs.«119006_j17231408791577_1_alg».proof.Proof.Matmul4
import proofs.«119006_j17231408791577_1_alg».proof.Proof.Combine1
import proofs.«119006_j17231408791577_1_alg».proof.Proof.Combine3
import proofs.«119006_j17231408791577_1_alg».proof.Proof.Combine5
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

/-- A buffer that no operation of a host stretch writes keeps its contents across the stretch. -/
macro "carry_host" : tactic => `(tactic| exact StableHlo.after_of_forall_not_mem _ _ (List.forall_iff_forall_mem.mp (by
  simp only [hostOps0, hostOps1, hostOps3, hostOps5, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

/-- The launch contents of argument 0. -/
abbrev A0 : Buf (Elt Ideal) ((c : Thread nD τ).loc main_arg0) := m ((c : Thread nD τ).loc main_arg0)
/-- The launch contents of argument 1. -/
abbrev A1 : Buf (Elt Ideal) ((c : Thread nD τ).loc main_arg1) := m ((c : Thread nD τ).loc main_arg1)
/-- The launch contents of argument 3. -/
abbrev A3 : Buf (Elt Ideal) ((c : Thread nD τ).loc main_arg3) := m ((c : Thread nD τ).loc main_arg3)
/-- The launch contents of argument 4. -/
abbrev A4 : Buf (Elt Ideal) ((c : Thread nD τ).loc main_arg4) := m ((c : Thread nD τ).loc main_arg4)
/-- The launch contents of argument 5. -/
abbrev A5 : Buf (Elt Ideal) ((c : Thread nD τ).loc main_arg5) := m ((c : Thread nD τ).loc main_arg5)
/-- The launch contents of argument 6. -/
abbrev A6 : Buf (Elt Ideal) ((c : Thread nD τ).loc main_arg6) := m ((c : Thread nD τ).loc main_arg6)
/-- The launch contents of argument 7. -/
abbrev A7 : Buf (Elt Ideal) ((c : Thread nD τ).loc main_arg7) := m ((c : Thread nD τ).loc main_arg7)
/-- The launch contents of argument 8. -/
abbrev A8 : Buf (Elt Ideal) ((c : Thread nD τ).loc main_arg8) := m ((c : Thread nD τ).loc main_arg8)

/-! ## Before the first layer: the edge lists, the edge weights, the self-loop weights -/

theorem W1_row : W1 m ρ c (Proc.devRef .tc main_v1) = val_main_v1 (F := Ideal) (A1 m c) := by
  show StableHlo.after hostOps0 (W0 m ρ c) (Proc.devRef .tc main_v1) = _
  after_results_simp
  rfl
theorem W1_col : W1 m ρ c (Proc.devRef .tc main_v3) = val_main_v3 (F := Ideal) (A1 m c) := by
  show StableHlo.after hostOps0 (W0 m ρ c) (Proc.devRef .tc main_v3) = _
  after_results_simp
  rfl
theorem W1_en : W1 m ρ c (Proc.devRef .tc main_v25) = val_main_v29 (F := Ideal) (A1 m c) := by
  show StableHlo.after hostOps0 (W0 m ρ c) (Proc.devRef .tc main_v25) = _
  after_results_simp
  rfl
theorem W1_sn : W1 m ρ c (Proc.devRef .tc main_v27) = val_main_v45 (F := Ideal) (A1 m c) := by
  show StableHlo.after hostOps0 (W0 m ρ c) (Proc.devRef .tc main_v27) = _
  after_results_simp
  exact Cert.Layout.column_eq (n := 100000) (by decide) (val_main_v30 (F := Ideal) (A1 m c)) _ _
theorem W1_a0 : W1 m ρ c (Proc.devRef .tc main_arg0) = (A0 m c) := by carry_host
theorem W1_a3 : W1 m ρ c (Proc.devRef .tc main_arg3) = (A3 m c) := by carry_host
theorem W1_a4 : W1 m ρ c (Proc.devRef .tc main_arg4) = (A4 m c) := by carry_host
theorem W1_a5 : W1 m ρ c (Proc.devRef .tc main_arg5) = (A5 m c) := by carry_host
theorem W1_a6 : W1 m ρ c (Proc.devRef .tc main_arg6) = (A6 m c) := by carry_host
theorem W1_a7 : W1 m ρ c (Proc.devRef .tc main_arg7) = (A7 m c) := by carry_host
theorem W1_a8 : W1 m ρ c (Proc.devRef .tc main_arg8) = (A8 m c) := by carry_host

/-! ## Layer 1 -/

theorem W2_h1m : W2 m ρ c (Proc.devRef .tc main_v28) = val_main_v31 (F := Ideal) (A0 m c) (A3 m c) :=
  (W2_arr m ρ c 2).trans ((Cert.KernelIdeal.RegionValue.mm0 (V1 m ρ) c).trans
    (congrArg₂ Cert.Spec.mm128 (W1_a0 m ρ c) (W1_a3 m ρ c)))
theorem W2_row : W2 m ρ c (Proc.devRef .tc main_v1) = val_main_v1 (F := Ideal) (A1 m c) :=
  (W2_of_ne m ρ c main_v1 (by decide)).trans (W1_row m ρ c)
theorem W2_col : W2 m ρ c (Proc.devRef .tc main_v3) = val_main_v3 (F := Ideal) (A1 m c) :=
  (W2_of_ne m ρ c main_v3 (by decide)).trans (W1_col m ρ c)
theorem W2_en : W2 m ρ c (Proc.devRef .tc main_v25) = val_main_v29 (F := Ideal) (A1 m c) :=
  (W2_of_ne m ρ c main_v25 (by decide)).trans (W1_en m ρ c)
theorem W2_sn : W2 m ρ c (Proc.devRef .tc main_v27) = val_main_v45 (F := Ideal) (A1 m c) :=
  (W2_of_ne m ρ c main_v27 (by decide)).trans (W1_sn m ρ c)
theorem W2_a4 : W2 m ρ c (Proc.devRef .tc main_arg4) = (A4 m c) := (W2_of_ne m ρ c main_arg4 (by decide)).trans (W1_a4 m ρ c)
theorem W2_a5 : W2 m ρ c (Proc.devRef .tc main_arg5) = (A5 m c) := (W2_of_ne m ρ c main_arg5 (by decide)).trans (W1_a5 m ρ c)
theorem W2_a6 : W2 m ρ c (Proc.devRef .tc main_arg6) = (A6 m c) := (W2_of_ne m ρ c main_arg6 (by decide)).trans (W1_a6 m ρ c)
theorem W2_a7 : W2 m ρ c (Proc.devRef .tc main_arg7) = (A7 m c) := (W2_of_ne m ρ c main_arg7 (by decide)).trans (W1_a7 m ρ c)
theorem W2_a8 : W2 m ρ c (Proc.devRef .tc main_arg8) = (A8 m c) := (W2_of_ne m ρ c main_arg8 (by decide)).trans (W1_a8 m ρ c)

theorem W3_agg : W3 m ρ c (Proc.devRef .tc main_v41) = val_main_v44 (F := Ideal) (A0 m c) (A1 m c) (A3 m c) := by
  show StableHlo.after hostOps1 (W2 m ρ c) (Proc.devRef .tc main_v41) = _
  after_results_simp
  rw [W2_row m ρ c, W2_col m ρ c, W2_en m ρ c, W2_h1m m ρ c]
  rfl
theorem W3_b : W3 m ρ c (Proc.devRef .tc main_v42) = val_main_v49 (F := Ideal) (A4 m c) := by
  show StableHlo.after hostOps1 (W2 m ρ c) (Proc.devRef .tc main_v42) = _
  after_results_simp
  rw [W2_a4 m ρ c]
  exact Cert.Layout.row_eq (n := 128) (by decide) (A4 m c) _ _
theorem W3_h1m : W3 m ρ c (Proc.devRef .tc main_v28) = val_main_v31 (F := Ideal) (A0 m c) (A3 m c) :=
  (by carry_host : W3 m ρ c (Proc.devRef .tc main_v28) = W2 m ρ c (Proc.devRef .tc main_v28)).trans (W2_h1m m ρ c)
theorem W3_sn : W3 m ρ c (Proc.devRef .tc main_v27) = val_main_v45 (F := Ideal) (A1 m c) :=
  (by carry_host : W3 m ρ c (Proc.devRef .tc main_v27) = W2 m ρ c (Proc.devRef .tc main_v27)).trans (W2_sn m ρ c)

theorem W4_h1 : W4 m ρ c (Proc.devRef .tc main_v43) = val_main_v52 (F := Ideal) (A0 m c) (A1 m c) (A3 m c) (A4 m c) := by
  refine (W4_arr m ρ c 4).trans ((Cert.KernelIdeal.RegionValue.cb1 (V3 m ρ) c).trans ?_)
  show Cert.Spec.relu128 (Cert.Spec.comb128 (W3 m ρ c (Proc.devRef .tc main_v41)) (W3 m ρ c (Proc.devRef .tc main_v28))
    (W3 m ρ c (Proc.devRef .tc main_v27)) (W3 m ρ c (Proc.devRef .tc main_v42))) = _
  rw [W3_agg m ρ c, W3_h1m m ρ c, W3_sn m ρ c, W3_b m ρ c]
  rfl

/-- What layer 1 leaves for the later layers: the edge lists, the edge weights, the self-loop weights, the later weights
    and biases — none of them an array of regions 1 or 2, none written by the host stretch between. -/
theorem W3_row : W3 m ρ c (Proc.devRef .tc main_v1) = val_main_v1 (F := Ideal) (A1 m c) := (by carry_host : W3 m ρ c (Proc.devRef .tc main_v1) = W2 m ρ c (Proc.devRef .tc main_v1)).trans (W2_row m ρ c)
theorem W3_col : W3 m ρ c (Proc.devRef .tc main_v3) = val_main_v3 (F := Ideal) (A1 m c) := (by carry_host : W3 m ρ c (Proc.devRef .tc main_v3) = W2 m ρ c (Proc.devRef .tc main_v3)).trans (W2_col m ρ c)
theorem W3_en : W3 m ρ c (Proc.devRef .tc main_v25) = val_main_v29 (F := Ideal) (A1 m c) := (by carry_host : W3 m ρ c (Proc.devRef .tc main_v25) = W2 m ρ c (Proc.devRef .tc main_v25)).trans (W2_en m ρ c)
theorem W3_a5 : W3 m ρ c (Proc.devRef .tc main_arg5) = (A5 m c) := (by carry_host : W3 m ρ c (Proc.devRef .tc main_arg5) = W2 m ρ c (Proc.devRef .tc main_arg5)).trans (W2_a5 m ρ c)
theorem W3_a6 : W3 m ρ c (Proc.devRef .tc main_arg6) = (A6 m c) := (by carry_host : W3 m ρ c (Proc.devRef .tc main_arg6) = W2 m ρ c (Proc.devRef .tc main_arg6)).trans (W2_a6 m ρ c)
theorem W3_a7 : W3 m ρ c (Proc.devRef .tc main_arg7) = (A7 m c) := (by carry_host : W3 m ρ c (Proc.devRef .tc main_arg7) = W2 m ρ c (Proc.devRef .tc main_arg7)).trans (W2_a7 m ρ c)
theorem W3_a8 : W3 m ρ c (Proc.devRef .tc main_arg8) = (A8 m c) := (by carry_host : W3 m ρ c (Proc.devRef .tc main_arg8) = W2 m ρ c (Proc.devRef .tc main_arg8)).trans (W2_a8 m ρ c)

theorem W4_row : W4 m ρ c (Proc.devRef .tc main_v1) = val_main_v1 (F := Ideal) (A1 m c) := (W4_of_ne m ρ c main_v1 (by decide)).trans (W3_row m ρ c)
theorem W4_col : W4 m ρ c (Proc.devRef .tc main_v3) = val_main_v3 (F := Ideal) (A1 m c) := (W4_of_ne m ρ c main_v3 (by decide)).trans (W3_col m ρ c)
theorem W4_en : W4 m ρ c (Proc.devRef .tc main_v25) = val_main_v29 (F := Ideal) (A1 m c) := (W4_of_ne m ρ c main_v25 (by decide)).trans (W3_en m ρ c)
theorem W4_sn : W4 m ρ c (Proc.devRef .tc main_v27) = val_main_v45 (F := Ideal) (A1 m c) :=
  (W4_arr m ρ c 2).trans (((dat1 (V3 m ρ) c).arrAt_in 2 rfl _).trans ((A_eq1 (V3 m ρ) c 2).trans (W3_sn m ρ c)))
theorem W4_a5 : W4 m ρ c (Proc.devRef .tc main_arg5) = (A5 m c) := (W4_of_ne m ρ c main_arg5 (by decide)).trans (W3_a5 m ρ c)
theorem W4_a6 : W4 m ρ c (Proc.devRef .tc main_arg6) = (A6 m c) := (W4_of_ne m ρ c main_arg6 (by decide)).trans (W3_a6 m ρ c)
theorem W4_a7 : W4 m ρ c (Proc.devRef .tc main_arg7) = (A7 m c) := (W4_of_ne m ρ c main_arg7 (by decide)).trans (W3_a7 m ρ c)
theorem W4_a8 : W4 m ρ c (Proc.devRef .tc main_arg8) = (A8 m c) := (W4_of_ne m ρ c main_arg8 (by decide)).trans (W3_a8 m ρ c)

/-! ## Layer 2 -/

theorem W5_h2m : W5 m ρ c (Proc.devRef .tc main_v44) = val_main_v53 (F := Ideal) (A0 m c) (A1 m c) (A3 m c) (A4 m c) (A5 m c) :=
  (W5_arr m ρ c 2).trans ((Cert.KernelIdeal.RegionValue.mm2 (V4 m ρ) c).trans
    (congrArg₂ Cert.Spec.mm128 (W4_h1 m ρ c) (W4_a5 m ρ c)))
theorem W5_row : W5 m ρ c (Proc.devRef .tc main_v1) = val_main_v1 (F := Ideal) (A1 m c) := (W5_of_ne m ρ c main_v1 (by decide)).trans (W4_row m ρ c)
theorem W5_col : W5 m ρ c (Proc.devRef .tc main_v3) = val_main_v3 (F := Ideal) (A1 m c) := (W5_of_ne m ρ c main_v3 (by decide)).trans (W4_col m ρ c)
theorem W5_en : W5 m ρ c (Proc.devRef .tc main_v25) = val_main_v29 (F := Ideal) (A1 m c) := (W5_of_ne m ρ c main_v25 (by decide)).trans (W4_en m ρ c)
theorem W5_sn : W5 m ρ c (Proc.devRef .tc main_v27) = val_main_v45 (F := Ideal) (A1 m c) := (W5_of_ne m ρ c main_v27 (by decide)).trans (W4_sn m ρ c)
theorem W5_a6 : W5 m ρ c (Proc.devRef .tc main_arg6) = (A6 m c) := (W5_of_ne m ρ c main_arg6 (by decide)).trans (W4_a6 m ρ c)
theorem W5_a7 : W5 m ρ c (Proc.devRef .tc main_arg7) = (A7 m c) := (W5_of_ne m ρ c main_arg7 (by decide)).trans (W4_a7 m ρ c)
theorem W5_a8 : W5 m ρ c (Proc.devRef .tc main_arg8) = (A8 m c) := (W5_of_ne m ρ c main_arg8 (by decide)).trans (W4_a8 m ρ c)

theorem W6_agg : W6 m ρ c (Proc.devRef .tc main_v57) = val_main_v66 (F := Ideal) (A0 m c) (A1 m c) (A3 m c) (A4 m c) (A5 m c) := by
  show StableHlo.after hostOps3 (W5 m ρ c) (Proc.devRef .tc main_v57) = _
  after_results_simp
  rw [W5_row m ρ c, W5_col m ρ c, W5_en m ρ c, W5_h2m m ρ c]
  rfl
theorem W6_b : W6 m ρ c (Proc.devRef .tc main_v58) = val_main_v71 (F := Ideal) (A6 m c) := by
  show StableHlo.after hostOps3 (W5 m ρ c) (Proc.devRef .tc main_v58) = _
  after_results_simp
  rw [W5_a6 m ρ c]
  exact Cert.Layout.row_eq (n := 128) (by decide) (A6 m c) _ _
theorem W6_h2m : W6 m ρ c (Proc.devRef .tc main_v44) = val_main_v53 (F := Ideal) (A0 m c) (A1 m c) (A3 m c) (A4 m c) (A5 m c) :=
  (by carry_host : W6 m ρ c (Proc.devRef .tc main_v44) = W5 m ρ c (Proc.devRef .tc main_v44)).trans (W5_h2m m ρ c)
theorem W6_sn : W6 m ρ c (Proc.devRef .tc main_v27) = val_main_v45 (F := Ideal) (A1 m c) := (by carry_host : W6 m ρ c (Proc.devRef .tc main_v27) = W5 m ρ c (Proc.devRef .tc main_v27)).trans (W5_sn m ρ c)
theorem W6_row : W6 m ρ c (Proc.devRef .tc main_v1) = val_main_v1 (F := Ideal) (A1 m c) := (by carry_host : W6 m ρ c (Proc.devRef .tc main_v1) = W5 m ρ c (Proc.devRef .tc main_v1)).trans (W5_row m ρ c)
theorem W6_col : W6 m ρ c (Proc.devRef .tc main_v3) = val_main_v3 (F := Ideal) (A1 m c) := (by carry_host : W6 m ρ c (Proc.devRef .tc main_v3) = W5 m ρ c (Proc.devRef .tc main_v3)).trans (W5_col m ρ c)
theorem W6_en : W6 m ρ c (Proc.devRef .tc main_v25) = val_main_v29 (F := Ideal) (A1 m c) := (by carry_host : W6 m ρ c (Proc.devRef .tc main_v25) = W5 m ρ c (Proc.devRef .tc main_v25)).trans (W5_en m ρ c)
theorem W6_a7 : W6 m ρ c (Proc.devRef .tc main_arg7) = (A7 m c) := (by carry_host : W6 m ρ c (Proc.devRef .tc main_arg7) = W5 m ρ c (Proc.devRef .tc main_arg7)).trans (W5_a7 m ρ c)
theorem W6_a8 : W6 m ρ c (Proc.devRef .tc main_arg8) = (A8 m c) := (by carry_host : W6 m ρ c (Proc.devRef .tc main_arg8) = W5 m ρ c (Proc.devRef .tc main_arg8)).trans (W5_a8 m ρ c)

theorem W7_h2 : W7 m ρ c (Proc.devRef .tc main_v59) = val_main_v74 (F := Ideal) (A0 m c) (A1 m c) (A3 m c) (A4 m c) (A5 m c) (A6 m c) := by
  refine (W7_arr m ρ c 4).trans ((Cert.KernelIdeal.RegionValue.cb3 (V6 m ρ) c).trans ?_)
  show Cert.Spec.relu128 (Cert.Spec.comb128 (W6 m ρ c (Proc.devRef .tc main_v57)) (W6 m ρ c (Proc.devRef .tc main_v44))
    (W6 m ρ c (Proc.devRef .tc main_v27)) (W6 m ρ c (Proc.devRef .tc main_v58))) = _
  rw [W6_agg m ρ c, W6_h2m m ρ c, W6_sn m ρ c, W6_b m ρ c]
  rfl
theorem W7_row : W7 m ρ c (Proc.devRef .tc main_v1) = val_main_v1 (F := Ideal) (A1 m c) := (W7_of_ne m ρ c main_v1 (by decide)).trans (W6_row m ρ c)
theorem W7_col : W7 m ρ c (Proc.devRef .tc main_v3) = val_main_v3 (F := Ideal) (A1 m c) := (W7_of_ne m ρ c main_v3 (by decide)).trans (W6_col m ρ c)
theorem W7_en : W7 m ρ c (Proc.devRef .tc main_v25) = val_main_v29 (F := Ideal) (A1 m c) := (W7_of_ne m ρ c main_v25 (by decide)).trans (W6_en m ρ c)
theorem W7_sn : W7 m ρ c (Proc.devRef .tc main_v27) = val_main_v45 (F := Ideal) (A1 m c) :=
  (W7_arr m ρ c 2).trans (((dat3 (V6 m ρ) c).arrAt_in 2 rfl _).trans ((A_eq3 (V6 m ρ) c 2).trans (W6_sn m ρ c)))
theorem W7_a7 : W7 m ρ c (Proc.devRef .tc main_arg7) = (A7 m c) := (W7_of_ne m ρ c main_arg7 (by decide)).trans (W6_a7 m ρ c)
theorem W7_a8 : W7 m ρ c (Proc.devRef .tc main_arg8) = (A8 m c) := (W7_of_ne m ρ c main_arg8 (by decide)).trans (W6_a8 m ρ c)

/-! ## Layer 3 -/

theorem W8_h3m : W8 m ρ c (Proc.devRef .tc main_v60) = val_main_v75 (F := Ideal) (A0 m c) (A1 m c) (A3 m c) (A4 m c) (A5 m c) (A6 m c) (A7 m c) :=
  (W8_arr m ρ c 2).trans ((Cert.KernelIdeal.RegionValue.mm4 (V7 m ρ) c).trans
    (congrArg₂ Cert.Spec.mm47 (W7_h2 m ρ c) (W7_a7 m ρ c)))
theorem W8_row : W8 m ρ c (Proc.devRef .tc main_v1) = val_main_v1 (F := Ideal) (A1 m c) := (W8_of_ne m ρ c main_v1 (by decide)).trans (W7_row m ρ c)
theorem W8_col : W8 m ρ c (Proc.devRef .tc main_v3) = val_main_v3 (F := Ideal) (A1 m c) := (W8_of_ne m ρ c main_v3 (by decide)).trans (W7_col m ρ c)
theorem W8_en : W8 m ρ c (Proc.devRef .tc main_v25) = val_main_v29 (F := Ideal) (A1 m c) := (W8_of_ne m ρ c main_v25 (by decide)).trans (W7_en m ρ c)
theorem W8_sn : W8 m ρ c (Proc.devRef .tc main_v27) = val_main_v45 (F := Ideal) (A1 m c) := (W8_of_ne m ρ c main_v27 (by decide)).trans (W7_sn m ρ c)
theorem W8_a8 : W8 m ρ c (Proc.devRef .tc main_arg8) = (A8 m c) := (W8_of_ne m ρ c main_arg8 (by decide)).trans (W7_a8 m ρ c)

theorem W9_agg : W9 m ρ c (Proc.devRef .tc main_v73) = val_main_v88 (F := Ideal) (A0 m c) (A1 m c) (A3 m c) (A4 m c) (A5 m c) (A6 m c) (A7 m c) := by
  show StableHlo.after hostOps5 (W8 m ρ c) (Proc.devRef .tc main_v73) = _
  after_results_simp
  rw [W8_row m ρ c, W8_col m ρ c, W8_en m ρ c, W8_h3m m ρ c]
  rfl
theorem W9_b : W9 m ρ c (Proc.devRef .tc main_v74) = val_main_v93 (F := Ideal) (A8 m c) := by
  show StableHlo.after hostOps5 (W8 m ρ c) (Proc.devRef .tc main_v74) = _
  after_results_simp
  rw [W8_a8 m ρ c]
  exact Cert.Layout.row_eq (n := 47) (by decide) (A8 m c) _ _
theorem W9_h3m : W9 m ρ c (Proc.devRef .tc main_v60) = val_main_v75 (F := Ideal) (A0 m c) (A1 m c) (A3 m c) (A4 m c) (A5 m c) (A6 m c) (A7 m c) :=
  (by carry_host : W9 m ρ c (Proc.devRef .tc main_v60) = W8 m ρ c (Proc.devRef .tc main_v60)).trans (W8_h3m m ρ c)
theorem W9_sn : W9 m ρ c (Proc.devRef .tc main_v27) = val_main_v45 (F := Ideal) (A1 m c) := (by carry_host : W9 m ρ c (Proc.devRef .tc main_v27) = W8 m ρ c (Proc.devRef .tc main_v27)).trans (W8_sn m ρ c)

/-- THE RESULT: after the last region the result buffer holds the reference's last stage of the launch arrays. -/
theorem W10_out : W10 m ρ c (Proc.devRef .tc main_v75)
    = val_main_v95 (F := Ideal) (A0 m c) (A1 m c) (A3 m c) (A4 m c) (A5 m c) (A6 m c) (A7 m c) (A8 m c) := by
  refine (W10_arr m ρ c 4).trans ((Cert.KernelIdeal.RegionValue.cb5 (V9 m ρ) c).trans ?_)
  show Cert.Spec.comb47 (W9 m ρ c (Proc.devRef .tc main_v73)) (W9 m ρ c (Proc.devRef .tc main_v60))
    (W9 m ρ c (Proc.devRef .tc main_v27)) (W9 m ρ c (Proc.devRef .tc main_v74)) = _
  rw [W9_agg m ρ c, W9_h3m m ρ c, W9_sn m ρ c, W9_b m ρ c]
  rfl

end Cert.KernelIdeal.Chain

end
-- ==== Proof.lean ====
/-
  A three-layer graph convolution over 100000 nodes and 1600000 edges, against its jnp reference.

  Both programs compute, from the edge lists, the symmetric normalisation (one over the square root of the degrees
  with self-loops; an edge's weight is the product of its endpoints' factors, a node's self-loop weight the square of
  its own), and then three times: a dense product `h · W`; the messages `weight(e) · (h · W)[col e]` summed into
  their target rows; and `agg + self_weight · (h · W) + bias`, followed in the first two layers by `max(·, 0)`.
  The kernel's program runs the dense product and the combination as tiled regions over blocks of 5000 nodes and
  leaves the gather and the scatter-add to the host; the reference runs everything on the host.

  Read over the extended reals the two programs apply THE SAME operations in the same order: a block of the tiled
  product is the matching block of rows of the whole product (the casts to a narrower format are the identity, the
  accumulator starts at zero), a block of the tiled combination is the matching block of the whole combination (the
  column of self-loop weights and the row of biases are broadcast the same way inside a block and over the whole
  array), and giving a vector a unit axis by a reshape or by a broadcast is the same array.  So no law of arithmetic
  is used and the precondition (finite inputs) is never opened: each buffer of the kernel's program is followed from
  the launch through the host stretches and the regions and found equal to the reference's matching stage.
  The idealisation rewrote nothing, so its preservation claim is empty.
-/
import proofs.«119006_j17231408791577_1_alg».proof.Defs
import proofs.«119006_j17231408791577_1_alg».proof.Proof.Gen.Kernel
import proofs.«119006_j17231408791577_1_alg».proof.Proof.Gen.Kernel.Skeleton
import proofs.«119006_j17231408791577_1_alg».proof.Proof.Gen.Kernel.Launch
import proofs.«119006_j17231408791577_1_alg».proof.Proof.Gen.Kernel.Points
import proofs.«119006_j17231408791577_1_alg».proof.Proof.Gen.Kernel.Frame
import proofs.«119006_j17231408791577_1_alg».proof.Proof.Gen.KernelIdeal
import proofs.«119006_j17231408791577_1_alg».proof.Proof.Gen.KernelIdeal.Skeleton
import proofs.«119006_j17231408791577_1_alg».proof.Proof.Gen.KernelIdeal.Launch
import proofs.«119006_j17231408791577_1_alg».proof.Proof.Gen.KernelIdeal.Points
import proofs.«119006_j17231408791577_1_alg».proof.Proof.Gen.KernelIdeal.Frame
import proofs.«119006_j17231408791577_1_alg».proof.Proof.Gen.ReferenceIdeal
import proofs.«119006_j17231408791577_1_alg».proof.Proof.Gen.ReferenceIdeal.Run
import proofs.«119006_j17231408791577_1_alg».proof.Proof.Gen.ReferenceIdeal.Read
import proofs.«119006_j17231408791577_1_alg».proof.Proof.Gen.Pre_finite_inputs
import proofs.«119006_j17231408791577_1_alg».proof.Proof.LaunchNamed
import proofs.«119006_j17231408791577_1_alg».proof.Proof.Chain
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) launch arrays in their result buffer. -/
theorem algebraic : Cert.algebraic_KernelIdeal_ReferenceIdeal := by
  intro m ρ m' ρ' _ hagree
  refine ⟨fun c => Cert.ReferenceIdeal.Read.val_main_v95 (F := Ideal) (Cert.KernelIdeal.Chain.A0 m c) (Cert.KernelIdeal.Chain.A1 m c)
      (Cert.KernelIdeal.Chain.A3 m c) (Cert.KernelIdeal.Chain.A4 m c) (Cert.KernelIdeal.Chain.A5 m c) (Cert.KernelIdeal.Chain.A6 m c)
      (Cert.KernelIdeal.Chain.A7 m c) (Cert.KernelIdeal.Chain.A8 m c), ?_, ?_⟩
  · exact (θ_run Cert.KernelIdeal.defs _ _).mono
      (fun r h c => ⟨(h c).1.trans (Cert.KernelIdeal.Chain.W10_out m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, -, h3, h4, h5, h6, h7, h8⟩ := hagree c
    rw [Cert.ReferenceIdeal.Read.val_main_v95_eq, h0, h1, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
